-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1000x50x14 : Shape := ⟨4, ![32, 1000, 50, 14]⟩
abbrev S32x1000x50x3 : Shape := ⟨4, ![32, 1000, 50, 3]⟩
abbrev S32000x50x3 : Shape := ⟨3, ![32000, 50, 3]⟩
abbrev S14 : Shape := ⟨1, ![14]⟩
abbrev S32000x50 : Shape := ⟨2, ![32000, 50]⟩
abbrev S_ : Shape := ⟨0, ![]⟩

class Facts : Prop where
  bcast_S_S32x1000x50x14 : S_.BroadcastsInDim S32x1000x50x14 (![] : Fin 0 → Fin S32x1000x50x14.rank)
  reducesTo_S32x1000x50x14_S_d0_1_2_3 : S32x1000x50x14.ReducesTo [0, 1, 2, 3] S_
  h_S_ : 0 < S_.numel
  bcast_S_S32x1000x50x3 : S_.BroadcastsInDim S32x1000x50x3 (![] : Fin 0 → Fin S32x1000x50x3.rank)
  reducesTo_S32x1000x50x3_S_d0_1_2_3 : S32x1000x50x3.ReducesTo [0, 1, 2, 3] S_
  bcast_S_S32000x50x3 : S_.BroadcastsInDim S32000x50x3 (![] : Fin 0 → Fin S32000x50x3.rank)
  reducesTo_S32000x50x3_S_d0_1_2 : S32000x50x3.ReducesTo [0, 1, 2] S_
  bcast_S_S14 : S_.BroadcastsInDim S14 (![] : Fin 0 → Fin S14.rank)
  reducesTo_S14_S_d0 : S14.ReducesTo [0] S_
  bcast_S_S32000x50 : S_.BroadcastsInDim S32000x50 (![] : Fin 0 → Fin S32000x50.rank)
  reducesTo_S32000x50_S_d0_1 : S32000x50.ReducesTo [0, 1] S_

variable [Facts]

def fn_part1 {F : FTy → Type} [FloatOps F] (main_arg4 : IVec S32000x50 32) (main_v13 : IVec S_ 1) (main_v16 : IVec S14 1) : IVec S_ 1 :=
  let main_c_5 : IVec S_ 1 := constantI S_ 1 1#1
  let main_v17 : IVec S_ 1 := (fun x v => Host.reduce IntOp.andi x v reducesTo_S14_S_d0 h_S_) main_v16 main_c_5
  let main_v18 : IVec S_ 1 := andi main_v13 main_v17
  let main_c_6 : IVec S_ 32 := constantI S_ 32 0#32
  let main_v19 : IVec S32000x50 32 := broadcastInDim S32000x50 ![] bcast_S_S32000x50 main_c_6
  let main_v20 : IVec S32000x50 1 := cmpi .sge main_arg4 main_v19
  let main_c_7 : IVec S_ 1 := constantI S_ 1 1#1
  let main_v21 : IVec S_ 1 := (fun x v => Host.reduce IntOp.andi x v reducesTo_S32000x50_S_d0_1 h_S_) main_v20 main_c_7
  let main_v22 : IVec S_ 1 := andi main_v18 main_v21
  let main_c_8 : IVec S_ 32 := constantI S_ 32 13#32
  let main_v23 : IVec S32000x50 32 := broadcastInDim S32000x50 ![] bcast_S_S32000x50 main_c_8
  let main_v24 : IVec S32000x50 1 := cmpi .sle main_arg4 main_v23
  let main_c_9 : IVec S_ 1 := constantI S_ 1 1#1
  let main_v25 : IVec S_ 1 := (fun x v => Host.reduce IntOp.andi x v reducesTo_S32000x50_S_d0_1 h_S_) main_v24 main_c_9
  let main_v26 : IVec S_ 1 := andi main_v22 main_v25
  main_v26

def fn {F : FTy → Type} [FloatOps F] (main_arg0 : FVec F S32x1000x50x14 .f32) (main_arg1 : FVec F S32x1000x50x3 .f32) (main_arg2 : FVec F S32000x50x3 .f32) (main_arg3 : FVec F S14 .f32) (main_arg4 : IVec S32000x50 32) : IVec S_ 1 :=
  let main_v0 : FVec F S32x1000x50x14 .f32 := Host.absf main_arg0
  let main_cst : FVec F S_ .f32 := constant S_ .f32 0x7F800000#32
  let main_v1 : FVec F S32x1000x50x14 .f32 := broadcastInDim S32x1000x50x14 ![] bcast_S_S32x1000x50x14 main_cst
  let main_v2 : IVec S32x1000x50x14 1 := cmpf .olt main_v0 main_v1
  let main_c : IVec S_ 1 := constantI S_ 1 1#1
  let main_v3 : IVec S_ 1 := (fun x v => Host.reduce IntOp.andi x v reducesTo_S32x1000x50x14_S_d0_1_2_3 h_S_) main_v2 main_c
  let main_v4 : FVec F S32x1000x50x3 .f32 := Host.absf main_arg1
  let main_cst_0 : FVec F S_ .f32 := constant S_ .f32 0x7F800000#32
  let main_v5 : FVec F S32x1000x50x3 .f32 := broadcastInDim S32x1000x50x3 ![] bcast_S_S32x1000x50x3 main_cst_0
  let main_v6 : IVec S32x1000x50x3 1 := cmpf .olt main_v4 main_v5
  let main_c_1 : IVec S_ 1 := constantI S_ 1 1#1
  let main_v7 : IVec S_ 1 := (fun x v => Host.reduce IntOp.andi x v reducesTo_S32x1000x50x3_S_d0_1_2_3 h_S_) main_v6 main_c_1
  let main_v8 : IVec S_ 1 := andi main_v3 main_v7
  let main_v9 : FVec F S32000x50x3 .f32 := Host.absf main_arg2
  let main_cst_2 : FVec F S_ .f32 := constant S_ .f32 0x7F800000#32
  let main_v10 : FVec F S32000x50x3 .f32 := broadcastInDim S32000x50x3 ![] bcast_S_S32000x50x3 main_cst_2
  let main_v11 : IVec S32000x50x3 1 := cmpf .olt main_v9 main_v10
  let main_c_3 : IVec S_ 1 := constantI S_ 1 1#1
  let main_v12 : IVec S_ 1 := (fun x v => Host.reduce IntOp.andi x v reducesTo_S32000x50x3_S_d0_1_2 h_S_) main_v11 main_c_3
  let main_v13 : IVec S_ 1 := andi main_v8 main_v12
  let main_v14 : FVec F S14 .f32 := Host.absf main_arg3
  let main_cst_4 : FVec F S_ .f32 := constant S_ .f32 0x7F800000#32
  let main_v15 : FVec F S14 .f32 := broadcastInDim S14 ![] bcast_S_S14 main_cst_4
  let main_v16 : IVec S14 1 := cmpf .olt main_v14 main_v15
  fn_part1 (F := F) main_arg4 main_v13 main_v16
-- ==== Kernel.lean ====
abbrev S32x1000x50x14 : Shape := ⟨4, ![32, 1000, 50, 14]⟩
abbrev S32x1000x50x3 : Shape := ⟨4, ![32, 1000, 50, 3]⟩
abbrev S32000x50x3 : Shape := ⟨3, ![32000, 50, 3]⟩
abbrev S14 : Shape := ⟨1, ![14]⟩
abbrev S32000x50 : Shape := ⟨2, ![32000, 50]⟩
abbrev S2x800000x14 : Shape := ⟨3, ![2, 800000, 14]⟩
abbrev S2x800000x3 : Shape := ⟨3, ![2, 800000, 3]⟩
abbrev S2x800000x1 : Shape := ⟨3, ![2, 800000, 1]⟩
abbrev S1x14 : Shape := ⟨2, ![1, 14]⟩
abbrev S2x1x3 : Shape := ⟨3, ![2, 1, 3]⟩
abbrev S1x10000x14 : Shape := ⟨3, ![1, 10000, 14]⟩
abbrev S1x10000x1 : Shape := ⟨3, ![1, 10000, 1]⟩
abbrev S1x10000x3 : Shape := ⟨3, ![1, 10000, 3]⟩
abbrev S1x1x3 : Shape := ⟨3, ![1, 1, 3]⟩
abbrev S1x10000 : Shape := ⟨2, ![1, 10000]⟩
abbrev S10000x14 : Shape := ⟨2, ![10000, 14]⟩
abbrev S14x10000 : Shape := ⟨2, ![14, 10000]⟩
abbrev S10000x1 : Shape := ⟨2, ![10000, 1]⟩
abbrev S10000x3 : Shape := ⟨2, ![10000, 3]⟩
abbrev S3x10000 : Shape := ⟨2, ![3, 10000]⟩
abbrev S14x1 : Shape := ⟨2, ![14, 1]⟩
abbrev S10000 : Shape := ⟨1, ![10000]⟩
abbrev S1 : Shape := ⟨1, ![1]⟩
abbrev S1x1 : Shape := ⟨2, ![1, 1]⟩
abbrev S1x3 : Shape := ⟨2, ![1, 3]⟩
abbrev S_ : Shape := ⟨0, ![]⟩

abbrev nBuf : Space → Nat
  | .hbm => 36
  | .vmem => 14
  | .smem => 0
  | _ => 0

abbrev bufTy : (tb : Table) → Fin (tcTables nBuf tb) → BufTy
  | .hbm, ⟨0, _⟩ => ⟨S32x1000x50x14, .f32⟩
  | .hbm, ⟨1, _⟩ => ⟨S32x1000x50x3, .f32⟩
  | .hbm, ⟨2, _⟩ => ⟨S32000x50x3, .f32⟩
  | .hbm, ⟨3, _⟩ => ⟨S14, .f32⟩
  | .hbm, ⟨4, _⟩ => ⟨S32000x50, .i32⟩
  | .hbm, ⟨5, _⟩ => ⟨S2x800000x14, .f32⟩
  | .hbm, ⟨6, _⟩ => ⟨S2x800000x3, .f32⟩
  | .hbm, ⟨7, _⟩ => ⟨S2x800000x3, .f32⟩
  | .hbm, ⟨8, _⟩ => ⟨S2x800000x1, .i32⟩
  | .hbm, ⟨9, _⟩ => ⟨S1x14, .f32⟩
  | .hbm, ⟨10, _⟩ => ⟨S2x1x3, .f32⟩
  | .hbm, ⟨11, _⟩ => ⟨S_, .f32⟩
  | .hbm, ⟨12, _⟩ => ⟨S1x3, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x10000x14, .f32⟩
  | .local _ .vmem, ⟨1, _⟩ => ⟨S1x10000x14, .f32⟩
  | .local _ .vmem, ⟨2, _⟩ => ⟨S1x10000x1, .i32⟩
  | .local _ .vmem, ⟨3, _⟩ => ⟨S1x10000x1, .i32⟩
  | .local _ .vmem, ⟨4, _⟩ => ⟨S1x10000x3, .f32⟩
  | .local _ .vmem, ⟨5, _⟩ => ⟨S1x10000x3, .f32⟩
  | .local _ .vmem, ⟨6, _⟩ => ⟨S1x10000x3, .f32⟩
  | .local _ .vmem, ⟨7, _⟩ => ⟨S1x10000x3, .f32⟩
  | .local _ .vmem, ⟨8, _⟩ => ⟨S1x14, .f32⟩
  | .local _ .vmem, ⟨9, _⟩ => ⟨S1x1x3, .f32⟩
  | .local _ .vmem, ⟨10, _⟩ => ⟨S1x1x3, .f32⟩
  | .local _ .vmem, ⟨11, _⟩ => ⟨S1x10000, .f32⟩
  | .local _ .vmem, ⟨12, _⟩ => ⟨S1x10000, .f32⟩
  | .local _ .vmem, ⟨13, _⟩ => ⟨S1x10000, .f32⟩
  | _, _ => ⟨S32x1000x50x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_call0_v0 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 80], ![false, false]⟩

def k0_cond2 (i : grid0.Coords) : BitVec 1 :=
  let arg1 : BitVec 32 := BitVec.ofNat 32 (i 1).val
  let c79_i32 : BitVec 32 := 79#32
  let v74 : BitVec 1 := Scalar.cmpi .eq arg1 c79_i32
  let v75 : BitVec 32 := Scalar.extui v74
  let c0_i32_34 : BitVec 32 := 0#32
  let v76 : BitVec 1 := Scalar.cmpi .ne v75 c0_i32_34
  v76

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x14 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S32x1000x50x14_S2x800000x14 : S32x1000x50x14.ShapeCasts S2x800000x14
  shapeCasts_S32x1000x50x3_S2x800000x3 : S32x1000x50x3.ShapeCasts S2x800000x3
  shapeCasts_S32000x50x3_S2x800000x3 : S32000x50x3.ShapeCasts S2x800000x3
  shapeCasts_S32000x50_S2x800000x1 : S32000x50.ShapeCasts S2x800000x1
  shapeCasts_S14_S1x14 : S14.ShapeCasts S1x14
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  inb_S1x10000x14_S1x10000x14_0_0_0 : ∀ a, (![0, 0, 0] : Fin 3 → Nat) a + S1x10000x14.size a ≤ S1x10000x14.size a
  h_S1x10000x14 : 0 < S1x10000x14.numel
  shapeCasts_S1x10000x14_S10000x14 : S1x10000x14.ShapeCasts S10000x14
  transposes_S10000x14_p1_0_S14x10000 : S10000x14.Transposes [1, 0] S14x10000
  inb_S1x10000x1_S1x10000x1_0_0_0 : ∀ a, (![0, 0, 0] : Fin 3 → Nat) a + S1x10000x1.size a ≤ S1x10000x1.size a
  h_S1x10000x1 : 0 < S1x10000x1.numel
  shapeCasts_S1x10000x1_S10000x1 : S1x10000x1.ShapeCasts S10000x1
  transposes_S10000x1_p1_0_S1x10000 : S10000x1.Transposes [1, 0] S1x10000
  inb_S1x10000x3_S1x10000x3_0_0_0 : ∀ a, (![0, 0, 0] : Fin 3 → Nat) a + S1x10000x3.size a ≤ S1x10000x3.size a
  h_S1x10000x3 : 0 < S1x10000x3.numel
  shapeCasts_S1x10000x3_S10000x3 : S1x10000x3.ShapeCasts S10000x3
  transposes_S10000x3_p1_0_S3x10000 : S10000x3.Transposes [1, 0] S3x10000
  inb_S1x14_S1x14_0_0 : ∀ a, (![0, 0] : Fin 2 → Nat) a + S1x14.size a ≤ S1x14.size a
  h_S1x14 : 0 < S1x14.numel
  shapeCasts_S1x14_S1x14 : S1x14.ShapeCasts S1x14
  transposes_S1x14_p1_0_S14x1 : S1x14.Transposes [1, 0] S14x1
  reduces_S14x10000_S10000 : S14x10000.Reduces [0] S10000
  shapeCasts_S10000_S1x10000 : S10000.ShapeCasts S1x10000
  broadcasts_S1x10000_S14x10000 : S1x10000.Broadcasts S14x10000
  iota_S14x10000_d0_w32 : S14x10000.Iotas .tc 32 [0]
  natLt_1_32 : 1 < 32
  broadcasts_S14x1_S14x10000 : S14x1.Broadcasts S14x10000
  broadcasts_S1x10000_S3x10000 : S1x10000.Broadcasts S3x10000
  reduces_S3x10000_S10000 : S3x10000.Reduces [0] S10000
  reduces_S1x10000_S1 : S1x10000.Reduces [1] S1
  shapeCasts_S1_S1x1 : S1.ShapeCasts S1x1
  concatenates_S1x1_S1x1_S1x1_S1x3_d1 : Shape.Concatenates [S1x1, S1x1, S1x1] S1x3 1
  shapeCasts_S1x3_S1x1x3 : S1x3.ShapeCasts S1x1x3
  inb_S1x1x3_S1x1x3_0_0_0 : ∀ a, (![0, 0, 0] : Fin 3 → Nat) a + S1x1x3.size a ≤ S1x1x3.size a
  h_S1x1x3 : 0 < S1x1x3.numel
  reducesTo_S2x1x3_S1x3_d0 : S2x1x3.ReducesTo [0] S1x3
  h_S_ : 0 < S_.numel
  slices_S1x3_S1x1_0_0 : S1x3.Slices ![0, 0] S1x1
  shapeCasts_S1x1_S_ : S1x1.ShapeCasts S_
  slices_S1x3_S1x1_0_1 : S1x3.Slices ![0, 1] S1x1
  slices_S1x3_S1x1_0_2 : S1x3.Slices ![0, 2] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x14.size a ≤ S2x800000x14.size a
  hwx0_0 : ∀ i : grid0.Coords, EltTy.bits .f32 = 32 ∨ (Rect.block (s := S2x800000x14) S1x10000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10000x1.size a ≤ S2x800000x1.size a
  hwx0_1 : ∀ i : grid0.Coords, EltTy.bits .i32 = 32 ∨ (Rect.block (s := S2x800000x1) S1x10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x3.size a ≤ S2x800000x3.size a
  hwx0_2 : ∀ i : grid0.Coords, EltTy.bits .f32 = 32 ∨ (Rect.block (s := S2x800000x3) S1x10000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10000x3.size a ≤ S2x800000x3.size a
  hwx0_3 : ∀ i : grid0.Coords, EltTy.bits .f32 = 32 ∨ (Rect.block (s := S2x800000x3) S1x10000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x14.size a ≤ S1x14.size a
  hwx0_4 : ∀ i : grid0.Coords, EltTy.bits .f32 = 32 ∨ (Rect.block (s := S1x14) S1x14.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x3.size a ≤ S2x1x3.size a
  hwx0_5 : ∀ i : grid0.Coords, EltTy.bits .f32 = 32 ∨ (Rect.block (s := S2x1x3) S1x1x3.size (cc0_transform_5 i) (hinb0_5 i)).WholeWords (EltTy.packing .f32)

variable [Facts₀]

abbrev win0_0 : Pipeline.Window sig grid0 :=
  Pipeline.Window.ofSpec (Memref.whole main_v0) S1x10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x10000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x10000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x14.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x1000x50x14 : Shape := ⟨4, ![32, 1000, 50, 14]⟩
abbrev S32x1000x50x3 : Shape := ⟨4, ![32, 1000, 50, 3]⟩
abbrev S32000x50x3 : Shape := ⟨3, ![32000, 50, 3]⟩
abbrev S14 : Shape := ⟨1, ![14]⟩
abbrev S32000x50 : Shape := ⟨2, ![32000, 50]⟩
abbrev S1600000x14 : Shape := ⟨2, ![1600000, 14]⟩
abbrev S1600000 : Shape := ⟨1, ![1600000]⟩
abbrev S_ : Shape := ⟨0, ![]⟩
abbrev S1600000x1 : Shape := ⟨2, ![1600000, 1]⟩
abbrev S1600000x1x1 : Shape := ⟨3, ![1600000, 1, 1]⟩
abbrev S1 : Shape := ⟨1, ![1]⟩
abbrev S1x1x1 : Shape := ⟨3, ![1, 1, 1]⟩
abbrev S32000x50x1 : Shape := ⟨3, ![32000, 50, 1]⟩

abbrev nBuf : Space → Nat
  | .hbm => 92
  | .vmem => 0
  | .smem => 0
  | _ => 0

abbrev bufTy : (tb : Table) → Fin (tcTables nBuf tb) → BufTy
  | .hbm, ⟨0, _⟩ => ⟨S32x1000x50x14, .f32⟩
  | .hbm, ⟨1, _⟩ => ⟨S32x1000x50x3, .f32⟩
  | .hbm, ⟨2, _⟩ => ⟨S32000x50x3, .f32⟩
  | .hbm, ⟨3, _⟩ => ⟨S14, .f32⟩
  | .hbm, ⟨4, _⟩ => ⟨S32000x50, .i32⟩
  | .hbm, ⟨5, _⟩ => ⟨S1600000x14, .f32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S1600000, .f32⟩
  | .hbm, ⟨11, _⟩ => ⟨S1600000, .f32⟩
  | .hbm, ⟨12, _⟩ => ⟨S1600000x1, .f32⟩
  | .hbm, ⟨13, _⟩ => ⟨S1600000x14, .f32⟩
  | .hbm, ⟨14, _⟩ => ⟨S1600000x14, .f32⟩
  | .hbm, ⟨15, _⟩ => ⟨S1600000x14, .f32⟩
  | .hbm, ⟨16, _⟩ => ⟨S_, .f32⟩
  | .hbm, ⟨17, _⟩ => ⟨S1600000, .f32⟩
  | .hbm, ⟨18, _⟩ => ⟨S1600000x1, .f32⟩
  | .hbm, ⟨19, _⟩ => ⟨S1600000x1, .f32⟩
  | .hbm, ⟨20, _⟩ => ⟨S1600000x14, .f32⟩
  | .hbm, ⟨21, _⟩ => ⟨S1600000x14, .f32⟩
  | .hbm, ⟨22, _⟩ => ⟨S1600000x1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S_, .i32⟩
  | .hbm, ⟨27, _⟩ => ⟨S1600000x1, .i32⟩
  | .hbm, ⟨28, _⟩ => ⟨S1600000x1, .i32⟩
  | .hbm, ⟨29, _⟩ => ⟨S1600000x1, .i32⟩
  | .hbm, ⟨30, _⟩ => ⟨S1600000x1x1, .i32⟩
  | .hbm, ⟨31, _⟩ => ⟨S1, .i32⟩
  | .hbm, ⟨32, _⟩ => ⟨S_, .i32⟩
  | .hbm, ⟨33, _⟩ => ⟨S1600000x1x1, .i32⟩
  | .hbm, ⟨34, _⟩ => ⟨S1600000x1x1, .i1⟩
  | .hbm, ⟨35, _⟩ => ⟨S1x1x1, .i32⟩
  | .hbm, ⟨36, _⟩ => ⟨S1600000x1x1, .i32⟩
  | .hbm, ⟨37, _⟩ => ⟨S1600000x1x1, .i1⟩
  | .hbm, ⟨38, _⟩ => ⟨S1600000x1x1, .i1⟩
  | .hbm, ⟨39, _⟩ => ⟨S_, .i1⟩
  | .hbm, ⟨40, _⟩ => ⟨S1600000x1, .i1⟩
  | .hbm, ⟨41, _⟩ => ⟨S1600000x1, .f32⟩
  | .hbm, ⟨42, _⟩ => ⟨S_, .f32⟩
  | .hbm, ⟨43, _⟩ => ⟨S1600000x1, .f32⟩
  | .hbm, ⟨44, _⟩ => ⟨S1600000x1, .f32⟩
  | .hbm, ⟨45, _⟩ => ⟨S1600000, .f32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000, .f32⟩
  | .hbm, ⟨56, _⟩ => ⟨S1600000, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32000x50x3, .f32⟩
  | .hbm, ⟨62, _⟩ => ⟨S_, .i32⟩
  | .hbm, ⟨63, _⟩ => ⟨S32000x50, .i32⟩
  | .hbm, ⟨64, _⟩ => ⟨S32000x50, .i1⟩
  | .hbm, ⟨65, _⟩ => ⟨S32000x50x3, .f32⟩
  | .hbm, ⟨66, _⟩ => ⟨S32000x50x3, .f32⟩
  | .hbm, ⟨67, _⟩ => ⟨S32000x50x1, .i1⟩
  | .hbm, ⟨68, _⟩ => ⟨S32000x50x1, .f32⟩
  | .hbm, ⟨69, _⟩ => ⟨S32000x50x3, .f32⟩
  | .hbm, ⟨70, _⟩ => ⟨S32000x50x3, .f32⟩
  | .hbm, ⟨71, _⟩ => ⟨S32000x50, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .i1⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S32x1000x50x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v2 : Ref sig .tc := ⟨.hbm, 21, rfl⟩
abbrev main_v3 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_c : Ref sig .tc := ⟨.hbm, 47, rfl⟩
abbrev main_v7 : Ref sig .tc := ⟨.hbm, 48, rfl⟩
abbrev main_v8 : Ref sig .tc := ⟨.hbm, 49, rfl⟩
abbrev main_c_0 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst : Ref sig .tc := ⟨.hbm, 57, rfl⟩
abbrev main_v15 : Ref sig .tc := ⟨.hbm, 58, rfl⟩
abbrev main_cst_1 : Ref sig .tc := ⟨.hbm, 59, rfl⟩
abbrev main_v16 : Ref sig .tc := ⟨.hbm, 60, rfl⟩
abbrev main_v17 : Ref sig .tc := ⟨.hbm, 61, rfl⟩
abbrev main_c_2 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_c_3 : Ref sig .tc := ⟨.hbm, 72, rfl⟩
abbrev main_v27 : Ref sig .tc := ⟨.hbm, 73, rfl⟩
abbrev main_v28 : Ref sig .tc := ⟨.hbm, 74, rfl⟩
abbrev main_cst_4 : Ref sig .tc := ⟨.hbm, 75, rfl⟩
abbrev main_v29 : Ref sig .tc := ⟨.hbm, 76, rfl⟩
abbrev main_cst_5 : Ref sig .tc := ⟨.hbm, 77, rfl⟩
abbrev main_v30 : Ref sig .tc := ⟨.hbm, 78, rfl⟩
abbrev main_cst_6 : Ref sig .tc := ⟨.hbm, 79, rfl⟩
abbrev main_v31 : Ref sig .tc := ⟨.hbm, 80, rfl⟩
abbrev main_cst_7 : Ref sig .tc := ⟨.hbm, 81, rfl⟩
abbrev main_v32 : Ref sig .tc := ⟨.hbm, 82, rfl⟩
abbrev main_v33 : Ref sig .tc := ⟨.hbm, 83, rfl⟩
abbrev main_cst_8 : Ref sig .tc := ⟨.hbm, 84, rfl⟩
abbrev main_call2_v0 : Ref sig .tc := ⟨.hbm, 85, rfl⟩
abbrev main_v34 : Ref sig .tc := ⟨.hbm, 86, rfl⟩
abbrev main_cst_9 : Ref sig .tc := ⟨.hbm, 87, rfl⟩
abbrev main_v35 : Ref sig .tc := ⟨.hbm, 88, rfl⟩
abbrev main_cst_10 : Ref sig .tc := ⟨.hbm, 89, rfl⟩
abbrev main_v36 : Ref sig .tc := ⟨.hbm, 90, rfl⟩
abbrev main_v37 : Ref sig .tc := ⟨.hbm, 91, rfl⟩

abbrev nD : Nat := 1
abbrev τ : Topo := Topo.v7x

variable {F : FTy → Type} [FloatOps F]

class Facts₀ : Prop where
  shapeCasts_S32x1000x50x14_S1600000x14 : S32x1000x50x14.ShapeCasts S1600000x14
  shapeCasts_S32000x50_S1600000 : S32000x50.ShapeCasts S1600000
  reducesTo_S1600000x14_S1600000_d1 : S1600000x14.ReducesTo [1] S1600000
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x14_0_1 : S1600000x1.BroadcastsInDim S1600000x14 (![0, 1] : Fin 2 → Fin S1600000x14.rank)
  bcast_S_S1600000x1 : S_.BroadcastsInDim S1600000x1 (![] : Fin 0 → Fin S1600000x1.rank)
  shapeCasts_S1600000x1_S1600000x1x1 : S1600000x1.ShapeCasts S1600000x1x1
  bcast_S_S1600000x1x1 : S_.BroadcastsInDim S1600000x1x1 (![] : Fin 0 → Fin S1600000x1x1.rank)
  bcast_S1_S1x1x1_2 : S1.BroadcastsInDim S1x1x1 (![2] : Fin 1 → Fin S1x1x1.rank)
  bcast_S1x1x1_S1600000x1x1_0_1_2 : S1x1x1.BroadcastsInDim S1600000x1x1 (![0, 1, 2] : Fin 3 → Fin S1600000x1x1.rank)
  reducesTo_S1600000x1x1_S1600000x1_d2 : S1600000x1x1.ReducesTo [2] S1600000x1
  shapeCasts_S1600000x1_S1600000 : S1600000x1.ShapeCasts S1600000
  reducesTo_S1600000_S_d0 : S1600000.ReducesTo [0] S_
  shapeCasts_S32x1000x50x3_S32000x50x3 : S32x1000x50x3.ShapeCasts S32000x50x3
  bcast_S_S32000x50 : S_.BroadcastsInDim S32000x50 (![] : Fin 0 → Fin S32000x50.rank)
  bcast_S32000x50_S32000x50x1_0_1 : S32000x50.BroadcastsInDim S32000x50x1 (![0, 1] : Fin 2 → Fin S32000x50x1.rank)
  bcast_S32000x50x1_S32000x50x3_0_1_2 : S32000x50x1.BroadcastsInDim S32000x50x3 (![0, 1, 2] : Fin 3 → Fin S32000x50x3.rank)
  natLt_1_32 : 1 < 32
  reducesTo_S32000x50_S_d0_1 : S32000x50.ReducesTo [0, 1] S_
  reducesTo_S32000x50x3_S_d0_1_2 : S32000x50x3.ReducesTo [0, 1, 2] S_
  gather_S1600000x14_S1600000x1x1_S1600000x1_n_1_0_0_1_2_11_wf : GatherDims.WF S1600000x14 S1600000x1x1 S1600000x1 [] [1] [0] [1] [0] 2 ![1, 1]
  gather_S14_S1600000x1_S1600000_n_0_n_n_0_1_1_wf : GatherDims.WF S14 S1600000x1 S1600000 [] [0] [] [0] [] 1 ![1]

variable [Facts₀]

def gather_S1600000x14_S1600000x1x1_S1600000x1_n_1_0_0_1_2_11 : GatherDims S1600000x14 S1600000x1x1 S1600000x1 where
  offsetDims := []
  collapsedSliceDims := [1]
  operandBatchingDims := [0]
  startIndicesBatchingDims := [0]
  startIndexMap := [1]
  indexVectorDim := 2
  sliceSizes := ![1, 1]
  wf := gather_S1600000x14_S1600000x1x1_S1600000x1_n_1_0_0_1_2_11_wf
def gather_S14_S1600000x1_S1600000_n_0_n_n_0_1_1 : GatherDims S14 S1600000x1 S1600000 where
  offsetDims := []
  collapsedSliceDims := [0]
  operandBatchingDims := []
  startIndicesBatchingDims := []
  startIndexMap := [0]
  indexVectorDim := 1
  sliceSizes := ![1]
  wf := gather_S14_S1600000x1_S1600000_n_0_n_n_0_1_1_wf

class Facts : Prop extends Facts₀ where

variable [Facts]
-- ==== Proof.Spec.lean ====
/-
  The loss both programs compute, stated once over the argument arrays.

  Rows.  The five arguments describe M = 32·1000·50 = 1 600 000 query slots ("rows").  Row `r` has fourteen class
  logits (the logits array read at flat position 14·r + c), a class label (the label array at flat position r), a
  predicted and a target direction of three components each (flat position 3·r + d), and there is one weight per
  class.  A label is read as a class index by clamping its signed value into [0, 13] (`cls`).

  Per row:
    * the log-softmax of the logits, `lsm x c = (x c − m) − log (∑ c', exp (x c' − m))` with `m` the maximum
      of the logits (taken from −∞);
    * the weighted cross-entropy term `w (cls g) · −(lsm x (cls g))`;
    * the matched indicator, 1 unless the class is the no-object class 13;
    * the L1 direction term `∑ d, |p d − q d| · matched`.

  The loss is a fixed scalar function `tail` of the three sums over all rows of the cross-entropy term, the direction
  term and the indicator: `1 · (A / 1600000) + 2 · (if 3N > 0 then B / max (3N) 1 else 0)`.  `tail` is spelled with
  the operations the two programs apply to those three scalars, and is never opened.
-/
import Idealize.ShloMosaic.PureOps.Ideal
import Idealize.ShloMosaic.Lib.ValueIdx

noncomputable section

namespace Cert.Spec

open Idealize.ShloMosaic Idealize.ShloMosaic.ValueIdx

/-- The shapes of the five arguments and of a scalar. -/
abbrev SX : Shape := ⟨4, ![32, 1000, 50, 14]⟩
abbrev SP : Shape := ⟨4, ![32, 1000, 50, 3]⟩
abbrev SQ : Shape := ⟨3, ![32000, 50, 3]⟩
abbrev SW : Shape := ⟨1, ![14]⟩
abbrev SG : Shape := ⟨2, ![32000, 50]⟩
abbrev S0 : Shape := ⟨0, ![]⟩

/-- The number of rows. -/
abbrev M : Nat := 1600000

/-! ## Row accessors: row `r` of each argument -/

theorem row_lt0 (r : Fin M) : r.val / 50000 < 32 := by have h : r.val < 1600000 := r.isLt; omega
theorem row_lt1 (r : Fin M) : r.val / 50 % 1000 < 1000 := Nat.mod_lt _ (by decide)
theorem row_lt2 (r : Fin M) : r.val % 50 < 50 := Nat.mod_lt _ (by decide)
theorem row_lt01 (r : Fin M) : r.val / 50 < 32000 := by have h : r.val < 1600000 := r.isLt; omega

/-- Logit `c` of row `r`: the logits array at (r / 50000, r / 50 mod 1000, r mod 50, c). -/
def xAt (x0 : SX.Idx → EReal) (r : Fin M) (c : Fin 14) : EReal :=
  x0 (ix4 (⟨r.val / 50000, row_lt0 r⟩ : Fin 32) (⟨r.val / 50 % 1000, row_lt1 r⟩ : Fin 1000) (⟨r.val % 50, row_lt2 r⟩ : Fin 50) c)

/-- Component `d` of row `r`'s predicted direction. -/
def pAt (x1 : SP.Idx → EReal) (r : Fin M) (d : Fin 3) : EReal :=
  x1 (ix4 (⟨r.val / 50000, row_lt0 r⟩ : Fin 32) (⟨r.val / 50 % 1000, row_lt1 r⟩ : Fin 1000) (⟨r.val % 50, row_lt2 r⟩ : Fin 50) d)

/-- Component `d` of row `r`'s target direction. -/
def qAt (x2 : SQ.Idx → EReal) (r : Fin M) (d : Fin 3) : EReal :=
  x2 (ix3 (⟨r.val / 50, row_lt01 r⟩ : Fin 32000) (⟨r.val % 50, row_lt2 r⟩ : Fin 50) d)

/-- The weight of class `c`. -/
def wAt (x3 : SW.Idx → EReal) (c : Fin 14) : EReal := x3 (ix1 c)

/-- Row `r`'s label word. -/
def gAt (x4 : SG.Idx → BitVec 32) (r : Fin M) : BitVec 32 :=
  x4 (ix2 (⟨r.val / 50, row_lt01 r⟩ : Fin 32000) (⟨r.val % 50, row_lt2 r⟩ : Fin 50))

/-- A label word as a class index: its signed value clamped into [0, 13]. -/
def cls (g : BitVec 32) : Fin 14 := ⟨min g.toInt.toNat 13, by omega⟩

/-- The labels are class indices: every label word's signed value lies in [0, 13]. -/
def InRange (x4 : SG.Idx → BitVec 32) : Prop := ∀ i : SG.Idx, 0 ≤ (x4 i).toInt ∧ (x4 i).toInt ≤ 13

/-! ## One row -/

/-- −∞, the value a running maximum starts from. -/
def negInf : EReal := Ideal.ofBits .f32 0xFF800000#32

/-- The maximum of a row's logits, from −∞. -/
def rowMax (x : Fin 14 → EReal) : EReal := max negInf ((Finset.univ : Finset (Fin 14)).fold max negInf x)

/-- The log-softmax of a row's logits at class `c`. -/
def lsm (x : Fin 14 → EReal) (c : Fin 14) : EReal :=
  (x c - rowMax x) - Ideal.log (∑ c' : Fin 14, Ideal.exp (x c' - rowMax x))

/-- The weighted cross-entropy term of a row with logits `x`, class weights `w` and label word `g`. -/
def ceTerm (x : Fin 14 → EReal) (w : Fin 14 → EReal) (g : BitVec 32) : EReal := w (cls g) * -(lsm x (cls g))

/-- 1 when the row is matched to an object (its class is not the no-object class 13), else 0. -/
def mtTerm (g : BitVec 32) : EReal := if cls g = (13 : Fin 14) then 0 else 1

/-- The L1 distance of the two directions, counted only for a matched row. -/
def adTerm (p q : Fin 3 → EReal) (g : BitVec 32) : EReal :=
  ∑ d : Fin 3, max (p d - q d) (-(p d - q d)) * mtTerm g

/-! ## All rows -/

def ceRow (x0 : SX.Idx → EReal) (x3 : SW.Idx → EReal) (x4 : SG.Idx → BitVec 32) (r : Fin M) : EReal :=
  ceTerm (xAt x0 r) (wAt x3) (gAt x4 r)

def adRow (x1 : SP.Idx → EReal) (x2 : SQ.Idx → EReal) (x4 : SG.Idx → BitVec 32) (r : Fin M) : EReal :=
  adTerm (pAt x1 r) (qAt x2 r) (gAt x4 r)

def mtRow (x4 : SG.Idx → BitVec 32) (r : Fin M) : EReal := mtTerm (gAt x4 r)

/-- The three sums over all rows. -/
def sumA (x0 : SX.Idx → EReal) (x3 : SW.Idx → EReal) (x4 : SG.Idx → BitVec 32) : EReal := ∑ r : Fin M, ceRow x0 x3 x4 r
def sumB (x1 : SP.Idx → EReal) (x2 : SQ.Idx → EReal) (x4 : SG.Idx → BitVec 32) : EReal := ∑ r : Fin M, adRow x1 x2 x4 r
def sumN (x4 : SG.Idx → BitVec 32) : EReal := ∑ r : Fin M, mtRow x4 r

/-! ## The scalar tail -/

/-- What both programs do with the three sums `a` (cross-entropy), `b` (direction) and `n` (matched count), each a
    rank-0 array: `1 · (a / 1600000) + 2 · (if 3n > 0 then b / max (3n) 1 else 0)`. -/
def tail (a b n : FVec Ideal S0 .f32) : FVec Ideal S0 .f32 :=
  addf (mulf (constant (F := Ideal) S0 .f32 0x3F800000#32) (Host.divf a (constant (F := Ideal) S0 .f32 0x49C35000#32)))
    (mulf (constant (F := Ideal) S0 .f32 0x40000000#32)
      (select (cmpf .ogt (mulf n (constant (F := Ideal) S0 .f32 0x40400000#32)) (constant (F := Ideal) S0 .f32 0x00000000#32))
        (Host.divf b (maximumf (mulf n (constant (F := Ideal) S0 .f32 0x40400000#32)) (constant (F := Ideal) S0 .f32 0x3F800000#32)))
        (id (constant (F := Ideal) S0 .f32 0x00000000#32))))

/-- The loss as a function of the five argument arrays. -/
def loss (x0 : SX.Idx → EReal) (x1 : SP.Idx → EReal) (x2 : SQ.Idx → EReal) (x3 : SW.Idx → EReal)
    (x4 : SG.Idx → BitVec 32) : FVec Ideal S0 .f32 :=
  tail (fun _ => sumA x0 x3 x4) (fun _ => sumB x1 x2 x4) (fun _ => sumN x4)

end Cert.Spec

end
-- ==== Proof.SpecSums.lean ====
/-
  Re-indexing the sums over all rows, and the sum of a one-hot product.
-/
import proofs.«424065_j21869973471695_3_alg».proof.Proof.Spec

noncomputable section

namespace Cert.Spec

open Idealize.ShloMosaic Idealize.ShloMosaic.ValueIdx

theorem split_lt (p : Fin 2) (k : Fin 80) (j : Fin 10000) : p.val * 800000 + k.val * 10000 + j.val < M := by
  have := p.isLt; have := k.isLt; have := j.isLt; show _ < 1600000; omega

/-! ## The bijections behind the re-indexings -/

/-- A triple (half p, lane j, chunk k) is the row 800000·p + 10000·k + j; a row r is the triple
    (r / 800000, r mod 10000, (r mod 800000) / 10000). -/
private def splitEquiv : Fin 2 × Fin 10000 × Fin 80 ≃ Fin M where
  toFun x := ⟨x.1.val * 800000 + x.2.2.val * 10000 + x.2.1.val, split_lt x.1 x.2.2 x.2.1⟩
  invFun r :=
    (⟨r.val / 800000, by have h : r.val < 1600000 := r.isLt; omega⟩,
     ⟨r.val % 10000, Nat.mod_lt _ (by decide)⟩,
     ⟨r.val % 800000 / 10000, by omega⟩)
  left_inv x := by
    obtain ⟨p, j, k⟩ := x
    have hp := p.isLt; have hj := j.isLt; have hk := k.isLt
    refine Prod.ext (Fin.ext ?_) (Prod.ext (Fin.ext ?_) (Fin.ext ?_))
    · show (p.val * 800000 + k.val * 10000 + j.val) / 800000 = p.val; omega
    · show (p.val * 800000 + k.val * 10000 + j.val) % 10000 = j.val; omega
    · show (p.val * 800000 + k.val * 10000 + j.val) % 800000 / 10000 = k.val; omega
  right_inv r := by
    have h : r.val < 1600000 := r.isLt
    apply Fin.ext
    show r.val / 800000 * 800000 + r.val % 800000 / 10000 * 10000 + r.val % 10000 = r.val
    omega

/-- A row r is the pair (r / 50, r mod 50); a pair (a, b) is the row 50·a + b. -/
private def rowEquiv : Fin M ≃ Fin 32000 × Fin 50 where
  toFun r := (⟨r.val / 50, row_lt01 r⟩, ⟨r.val % 50, row_lt2 r⟩)
  invFun x := ⟨x.1.val * 50 + x.2.val, by have := x.1.isLt; have := x.2.isLt; show _ < 1600000; omega⟩
  left_inv r := by
    apply Fin.ext
    show r.val / 50 * 50 + r.val % 50 = r.val
    omega
  right_inv x := by
    obtain ⟨a, b⟩ := x
    have ha := a.isLt; have hb := b.isLt
    refine Prod.ext (Fin.ext ?_) (Fin.ext ?_)
    · show (a.val * 50 + b.val) / 50 = a.val; omega
    · show (a.val * 50 + b.val) % 50 = b.val; omega

/-- A one-axis index set is its coordinate range. -/
private def axis1Equiv {n : Nat} : (⟨1, ![n]⟩ : Shape).Idx ≃ Fin n where
  toFun i := i 0
  invFun a := ix1 a
  left_inv i := (eq_ix1 i).symm
  right_inv _ := rfl

/-- A three-axis index set is the product of the range of its first two coordinates and that of its third. -/
private def axis3Equiv {n0 n1 n2 : Nat} : (⟨3, ![n0, n1, n2]⟩ : Shape).Idx ≃ (Fin n0 × Fin n1) × Fin n2 where
  toFun i := ((i 0, i 1), i 2)
  invFun x := ix3 x.1.1 x.1.2 x.2
  left_inv i := (eq_ix3 i).symm
  right_inv _ := rfl

/-! ## The sums -/

/-- The rows are the triples (half p, lane j, chunk k): row = 800000·p + 10000·k + j. A sum over all rows is the
    sum over the halves, of the sum over the lanes, of the sum over the chunks. -/
theorem sum_rows_split (f : Fin M → EReal) :
    (∑ p : Fin 2, ∑ j : Fin 10000, ∑ k : Fin 80, f ⟨p.val * 800000 + k.val * 10000 + j.val, split_lt p k j⟩)
      = ∑ r : Fin M, f r := by
  -- re-index the right side through the bijection, then split the sum over the product into iterated sums
  refine Eq.trans ?_ (Equiv.sum_comp splitEquiv f)
  refine Eq.trans ?_ (Fintype.sum_prod_type (fun x : Fin 2 × Fin 10000 × Fin 80 => f (splitEquiv x))).symm
  refine Finset.sum_congr rfl fun p _ => ?_
  refine Eq.trans ?_ (Fintype.sum_prod_type (fun y : Fin 10000 × Fin 80 => f (splitEquiv (p, y)))).symm
  exact Finset.sum_congr rfl fun j _ => Finset.sum_congr rfl fun k _ => rfl

/-- A sum over the one-axis index set of extent M is the sum over the rows. -/
theorem sum_idx1_rows (f : (⟨1, ![M]⟩ : Shape).Idx → EReal) :
    (∑ i : (⟨1, ![M]⟩ : Shape).Idx, f i) = ∑ r : Fin M, f (ix1 r) := by
  refine (Equiv.sum_comp (axis1Equiv (n := M)).symm f).symm.trans ?_
  exact Finset.sum_congr rfl fun r _ => rfl

/-- A sum over the [32000, 50, 3] index set is the sum over the rows of the sum over the three components. -/
theorem sum_idx3_rows (f : SQ.Idx → EReal) :
    (∑ i : SQ.Idx, f i)
      = ∑ r : Fin M, ∑ d : Fin 3, f (ix3 (⟨r.val / 50, row_lt01 r⟩ : Fin 32000) (⟨r.val % 50, row_lt2 r⟩ : Fin 50) d) := by
  -- indices ↔ ((a, b), d); then sum over d inside; then (a, b) ↔ row
  refine (Equiv.sum_comp (axis3Equiv (n0 := 32000) (n1 := 50) (n2 := 3)).symm f).symm.trans ?_
  refine (Fintype.sum_prod_type (fun x : (Fin 32000 × Fin 50) × Fin 3 => f (axis3Equiv.symm x))).trans ?_
  refine (Equiv.sum_comp rowEquiv
    (fun y : Fin 32000 × Fin 50 => ∑ d : Fin 3, f (axis3Equiv.symm (y, d)))).symm.trans ?_
  exact Finset.sum_congr rfl fun r _ => Finset.sum_congr rfl fun d _ => rfl

/-- A sum over the [32000, 50] index set is the sum over the rows (any commutative monoid: used for a count in ℕ too). -/
theorem sum_idx2_rows {A : Type*} [AddCommMonoid A] (f : SG.Idx → A) :
    (∑ i : SG.Idx, f i) = ∑ r : Fin M, f (ix2 (⟨r.val / 50, row_lt01 r⟩ : Fin 32000) (⟨r.val % 50, row_lt2 r⟩ : Fin 50)) := by
  -- indices ↔ (a, b) ↔ row
  refine (Equiv.sum_comp (idxEquiv2 (n0 := 32000) (n1 := 50)).symm f).symm.trans ?_
  refine (Equiv.sum_comp rowEquiv (fun y : Fin 32000 × Fin 50 => f (idxEquiv2.symm y))).symm.trans ?_
  exact Finset.sum_congr rfl fun r _ => rfl

/-- Summing a family against the indicator of one class picks that class's entry (indicator on the right). -/
theorem onehot_sum_right (a : Fin 14 → EReal) (g : Fin 14) :
    (∑ c : Fin 14, a c * (if c = g then (1 : EReal) else 0)) = a g := by
  simp only [mul_ite, mul_one, mul_zero, Finset.sum_ite_eq', Finset.mem_univ, if_true]

/-- The same with the indicator on the left. -/
theorem onehot_sum_left (b : Fin 14 → EReal) (g : Fin 14) :
    (∑ c : Fin 14, (if c = g then (1 : EReal) else 0) * b c) = b g := by
  simp only [ite_mul, one_mul, zero_mul, Finset.sum_ite_eq', Finset.mem_univ, if_true]

end Cert.Spec

end
-- ==== Proof.LibTakeAlong.lean ====
/-
  `stablehlo.gather` as `jnp.take_along_axis(x, idx, axis=1)` lowers it, read at an entry.

  For a matrix `x : [N, C]` and one column index per row, `idx : [N, 1]`, the lowering reshapes the indices to
  `[N, 1, 1]` and gathers with offset_dims `[]`, collapsed_slice_dims `[1]`, operand_batching_dims `[0]`,
  start_indices_batching_dims `[0]`, start_index_map `[1]`, index_vector_dim 2 and slice_sizes `[1, 1]`; the result
  is `[N, 1]`.  Axis 0 of the operand is a batching axis: result entry `(r, 0)` reads row `r` of the operand, the
  row of its own start index.  Axis 1 is the one the start index names: the column is the start index `idx[r, 0, 0]`,
  read as a signed integer and clamped into `[0, C - 1]`, as StableHLO clamps every start index so that the slice
  (here one element) fits.  Both slice sizes are 1, so no offset is added on either axis.

  `takeAlongDims N C wf` is that record of dimension numbers for any `N` and `C`; `gather_takeAlong_apply` reads
  `Host.gather` of it at a result index, and `gather_takeAlong_ix2` is the same at an index given by coordinates.
-/
import Idealize.ShloMosaic.Lib.ValueIdx

noncomputable section

namespace Cert.Proof.LibTakeAlong

open Idealize.ShloMosaic Idealize.ShloMosaic.ValueIdx

variable {α : Type}

/-- The dimension numbers of the batched gather for an operand `[N, C]`, start indices `[N, 1, 1]` and result
    `[N, 1]`. The well-formedness conditions are taken as a hypothesis `wf`, so the record exists for every `N` and `C`
    for which they hold. -/
abbrev takeAlongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index `[r, 0, 0]` at which result index `(r, 0)` reads its column. -/
abbrev takeAlongIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- On the batching axis the operand coordinate is the result's row. -/
theorem takeAlong_coord0 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 0 + (takeAlongDims N C wf).batchCoord y 0 + (takeAlongDims N C wf).offCoord y 0
      = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (takeAlongDims N C wf).operandBatchingDims from List.mem_singleton.mpr rfl)]
  rfl

/-- On the indexed axis the operand coordinate is the clamped start index. -/
theorem takeAlong_coord1 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 1 + (takeAlongDims N C wf).batchCoord y 1 + (takeAlongDims N C wf).offCoord y 1
      = min (idx (takeAlongIdx y)).toInt.toNat (C - 1) := by
  rw [GatherDims.batchCoord_eq_zero _ _ _ (show (1 : Fin 2) ∉ ([0] : List (Fin 2)) by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (takeAlongDims N C wf).startIndexMap from List.mem_singleton.mpr rfl)]
  have hsi : (takeAlongDims N C wf).siIdx y ⟨List.idxOf (1 : Fin 2) (takeAlongDims N C wf).startIndexMap,
      List.idxOf_lt_length_iff.2 (List.mem_singleton.mpr rfl)⟩ = takeAlongIdx y := by
    funext b; refine Fin.ext ?_
    match b with
    | ⟨0, _⟩ => rfl
    | ⟨1, hb⟩ =>
      have h1 : (y 1).val < 1 := idx2_lt1 y
      show (y 1).val = 0
      omega
    | ⟨2, _⟩ => rfl
  rw [hsi]
  rfl

/-- The batched gather at result index `y` is the operand at row `y 0` and at the column given by the start index
    `idx[y 0, 0, 0]`, taken as a signed integer and clamped into `[0, C − 1]`. -/
theorem gather_takeAlong_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (takeAlongDims N C wf) x idx y
      = x (ix2 (⟨(y 0).val, idx2_lt0 y⟩ : Fin N)
            (⟨min (idx (takeAlongIdx y)).toInt.toNat (C - 1), by omega⟩ : Fin C)) := by
  unfold Host.gather
  congr 1
  funext a
  refine Fin.ext ?_
  match a with
  | ⟨0, _⟩ => exact takeAlong_coord0 wf idx y
  | ⟨1, _⟩ => exact takeAlong_coord1 wf idx y

/-- The same at a result index given by its coordinates: row `r`, and the one column. -/
theorem gather_takeAlong_ix2 {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (r : Fin N) (c : Fin 1) :
    Host.gather (takeAlongDims N C wf) x idx (ix2 r c)
      = x (ix2 r (⟨min (idx (ix3 r (0 : Fin 1) (0 : Fin 1))).toInt.toNat (C - 1), by omega⟩ : Fin C)) := by
  rw [gather_takeAlong_apply hC wf x idx (ix2 r c)]
  have h : takeAlongIdx (ix2 r c) = ix3 r (0 : Fin 1) (0 : Fin 1) := by
    funext b; match b with | ⟨0, _⟩ => rfl | ⟨1, _⟩ => rfl | ⟨2, _⟩ => rfl
  refine congrArg x (funext fun a => Fin.ext ?_)
  match a with
  | ⟨0, _⟩ => rfl
  | ⟨1, _⟩ =>
    show min (idx (takeAlongIdx (ix2 r c))).toInt.toNat (C - 1) = min (idx (ix3 r (0 : Fin 1) (0 : Fin 1))).toInt.toNat (C - 1)
    rw [h]

end Cert.Proof.LibTakeAlong

end
-- ==== Proof.LibVecGather.lean ====
/-
  Reading a gather of scalars, and two small broadcasts, at an index.
  `x[idx]` of a flat array `x : [N]` at an index column `idx : [T, 1]` lowers to a gather whose result element `t` is the
  operand at the start index `idx[t, 0]`, read signed and clamped into `[0, N − 1]` (a negative index reads entry `0`,
  an index past the end reads the last entry). A vector broadcast to a one-column matrix along axis 0 reads, at `(t, z)`,
  the vector at `t`. A one-element vector broadcast to `[1, 1]` and on to `[N, 1]` reads its one element everywhere.
-/
import Idealize.ShloMosaic.PureOps.Ideal
import Idealize.ShloMosaic.Lib.ValueIdx
import Idealize.ShloMosaic.Lib.Pipeline.Value

noncomputable section

namespace Cert.LibVecGather

open Idealize.ShloMosaic Idealize.ShloMosaic.ValueIdx

/-- The dimension numbers of a gather of scalars: operand `[N]`, indices `[T, 1]`, result `[T]`; result element `t` is the
    operand's entry at the start index `idx[t, 0]` (slice size `[1]`, the one operand axis collapsed). -/
abbrev vecGatherDims (N T : Nat)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- Result position `t` reads its start index at `(t, 0)`: the result's one axis is a batch axis and supplies the indices'
    axis 0; the index vector (axis 1, of extent 1) has only the component `0`. -/
theorem vecGather_siIdx {N T : Nat} (wf : GatherDims.WF ⟨1, ![N]⟩ ⟨2, ![T, 1]⟩ ⟨1, ![T]⟩ [] [0] [] [0] [] 1 ![1])
    (t : Fin T) (c : Fin (vecGatherDims N T wf).startIndexMap.length) :
    (vecGatherDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- THE GATHER OF SCALARS READ AT `t`: the operand at the start index `idx[t, 0]`, read signed and clamped into `[0, N − 1]`. -/
theorem vecGather_apply {α : Type} {N T w : Nat} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (t : Fin T) :
    Host.gather (vecGatherDims N T wf) x idx (ix1 t)
      = x (ix1 (⟨min (idx (ix2 t (0 : Fin 1))).toInt.toNat (N - 1), by omega⟩ : Fin N)) := by
  unfold Host.gather
  congr 1
  funext a
  obtain rfl : a = 0 := Subsingleton.elim _ _
  refine Fin.ext ?_
  -- the operand's one coordinate is slice start + batching coordinate + offset; the last two are 0
  show (vecGatherDims N T wf).start (ix1 t) idx 0 + (vecGatherDims N T wf).batchCoord (ix1 t) 0
      + (vecGatherDims N T wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N T wf).startIndexMap from List.mem_singleton.mpr rfl),
    vecGather_siIdx]
  rfl

/-- A vector of `T ≠ 1` entries broadcast along axis 0 to a `[T, 1]` column reads, at `(t, z)`, its entry `t`. -/
theorem column_apply {α : Type} {T : Nat} (hT : T ≠ 1)
    (h : (⟨1, ![T]⟩ : Shape).BroadcastsInDim ⟨2, ![T, 1]⟩ (![0] : Fin 1 → Fin 2))
    (v : (⟨1, ![T]⟩ : Shape).Idx → α) (t : Fin T) (z : Fin 1) :
    broadcastInDim ⟨2, ![T, 1]⟩ ![0] h v (ix2 t z) = v (ix1 t) :=
  broadcastInDim_apply _ h v (ix2 t z) (ix1 t) (fun a => match a with
    | ⟨0, _⟩ => by show t.val = if T = 1 then 0 else t.val; rw [if_neg hT])

/-- A one-element vector broadcast to `[1, 1]` (as the column axis) and then to `[N, 1]` reads its element everywhere. -/
theorem bias_apply {α : Type} {N : Nat}
    (h1 : (⟨1, ![1]⟩ : Shape).BroadcastsInDim ⟨2, ![1, 1]⟩ (![1] : Fin 1 → Fin 2))
    (h2 : (⟨2, ![1, 1]⟩ : Shape).BroadcastsInDim ⟨2, ![N, 1]⟩ (![0, 1] : Fin 2 → Fin 2))
    (b : (⟨1, ![1]⟩ : Shape).Idx → α) (i : (⟨2, ![N, 1]⟩ : Shape).Idx) :
    broadcastInDim ⟨2, ![N, 1]⟩ ![0, 1] h2 (broadcastInDim ⟨2, ![1, 1]⟩ ![1] h1 b) i = b (ix1 (0 : Fin 1)) := by
  rw [broadcastInDim_apply _ h2 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  exact broadcastInDim_apply _ h1 b _ (ix1 (0 : Fin 1)) (fun a => match a with
    | ⟨0, _⟩ => by show 0 = if (1 : Nat) = 1 then 0 else ((ix2 (0 : Fin 1) (0 : Fin 1)) 1).val; rw [if_pos rfl])

end Cert.LibVecGather

end
-- ==== Proof.RefCe.lean ====
/-
  The reference's cross-entropy row: its log-softmax, its take along the class axis and its weight gather, read at
  row `r`, are the specification's weighted cross-entropy term of that row — when every label is a class index.
-/
import proofs.«424065_j21869973471695_3_alg».proof.Proof.RefRead
import proofs.«424065_j21869973471695_3_alg».proof.Proof.Spec
import proofs.«424065_j21869973471695_3_alg».proof.Proof.SpecSums
import proofs.«424065_j21869973471695_3_alg».proof.Proof.LibTakeAlong
import proofs.«424065_j21869973471695_3_alg».proof.Proof.LibVecGather
import Idealize.ShloMosaic.PureOps.Ideal.Laws
import Idealize.ShloMosaic.Lib.Pipeline.Value
import Idealize.ShloMosaic.Lib.StableHlo.Predicate

noncomputable section

namespace Cert.ReferenceIdeal.RefCe

open Idealize.ShloMosaic Idealize.ShloMosaic.ValueIdx Cert.ReferenceIdeal Cert.ReferenceIdeal.Read

/-! ## Indices by their coordinates -/

/-- A rank-1 index is determined by its coordinate. -/
private theorem idx1_ext {n : Nat} (j : (⟨1, ![n]⟩ : Shape).Idx) (a : Fin n) (h : (j 0).val = a.val) : j = ix1 a := by
  funext d; match d with | ⟨0, _⟩ => exact Fin.ext h

/-- A rank-2 index is determined by its two coordinates. -/
private theorem idx2_ext {n0 n1 : Nat} (j : (⟨2, ![n0, n1]⟩ : Shape).Idx) (a : Fin n0) (b : Fin n1)
    (h0 : (j 0).val = a.val) (h1 : (j 1).val = b.val) : j = ix2 a b := by
  funext d; match d with | ⟨0, _⟩ => exact Fin.ext h0 | ⟨1, _⟩ => exact Fin.ext h1

/-! ## The label words -/

/-- Under the range hypothesis row `r`'s label word is a class index. -/
private theorem g_range (x4 : (⟨S32000x50, .i32⟩ : BufTy).Contents (Elt Ideal)) (hr : Cert.Spec.InRange x4) (r : Fin Cert.Spec.M) :
    0 ≤ (Cert.Spec.gAt x4 r).toInt ∧ (Cert.Spec.gAt x4 r).toInt ≤ 13 := hr _

/-- A nonnegative word is left alone by the negative-index normalisation `g < 0 ? g + 14 : g`. -/
private theorem norm_word (g : BitVec 32) (h0 : 0 ≤ g.toInt) :
    Scalar.select (IntOp.cmpi .slt g 0#32) (IntOp.addi g 14#32) g = g := by
  have h : IntOp.cmpi .slt g 0#32 = 0#1 := eq_zero_of_ne_one (fun h => by
    have h' := IntOp.cmpi_slt.1 h
    have z : (0#32 : BitVec 32).toInt = 0 := by decide
    omega)
  rw [h]; exact select_zero _ _

/-- A word in `[0, 13]` passes the range test `0 ≤ g ∧ g ≤ 13`. -/
private theorem in_range_word (g : BitVec 32) (h0 : 0 ≤ g.toInt) (h1 : g.toInt ≤ 13) :
    IntOp.andi (IntOp.cmpi .sge g 0#32) (IntOp.cmpi .sle g 13#32) = 1#1 := by
  have z0 : (0#32 : BitVec 32).toInt = 0 := by decide
  have z13 : (13#32 : BitVec 32).toInt = 13 := by decide
  exact IntOp.andi_eq_one.2 ⟨IntOp.cmpi_sge.2 (by omega), IntOp.cmpi_sle.2 (by omega)⟩

/-- The flattened labels at row `r`: the label word of row `r`. -/
private theorem lab_at (x4 : (⟨S32000x50, .i32⟩ : BufTy).Contents (Elt Ideal)) (r : Fin Cert.Spec.M) :
    val_main_v1 (F := Ideal) x4 (ix1 r) = Cert.Spec.gAt x4 r := by
  rw [val_main_v1_apply]
  unfold Cert.Spec.gAt
  exact congrArg x4 (idx2_ext _ _ _ rfl rfl)

/-- The labels as a column, at `(r, 0)`. -/
private theorem col_at (x4 : (⟨S32000x50, .i32⟩ : BufTy).Contents (Elt Ideal)) (r : Fin Cert.Spec.M) (z : Fin 1) :
    val_main_v3 (F := Ideal) x4 (ix2 r z) = Cert.Spec.gAt x4 r := by
  rw [val_main_v3_apply, ← lab_at]
  exact congrArg _ (idx1_ext _ _ rfl)

/-- The take's normalised index column is the label column. -/
private theorem ncol_at (x4 : (⟨S32000x50, .i32⟩ : BufTy).Contents (Elt Ideal)) (hr : Cert.Spec.InRange x4)
    (r : Fin Cert.Spec.M) (z : Fin 1) :
    val_main_call1_v4 (F := Ideal) x4 (ix2 r z) = Cert.Spec.gAt x4 r := by
  rw [val_main_call1_v4_apply, val_main_call1_v1_apply, val_main_call1_v3_apply, val_main_call1_v0_apply,
    val_main_call1_c_apply, val_main_call1_v2_apply, val_main_call1_c_0_apply, col_at]
  exact norm_word _ (g_range x4 hr r).1

/-- The take's start indices `[N, 1, 1]` at any index: the label word of its row. -/
private theorem start_at (x4 : (⟨S32000x50, .i32⟩ : BufTy).Contents (Elt Ideal)) (hr : Cert.Spec.InRange x4)
    (i : S1600000x1x1.Idx) :
    val_main_call1_v5 (F := Ideal) x4 i = Cert.Spec.gAt x4 (⟨(i 0).val, (i 0).isLt⟩ : Fin Cert.Spec.M) := by
  rw [val_main_call1_v5_apply, ← ncol_at x4 hr (⟨(i 0).val, (i 0).isLt⟩ : Fin Cert.Spec.M) (0 : Fin 1)]
  refine congrArg _ (idx2_ext _ _ _ ?_ rfl)
  have h1 : (i 1).val < 1 := (i 1).isLt
  have h2 : (i 2).val < 1 := (i 2).isLt
  show (((i 0).val * 1 + (i 1).val) * 1 + (i 2).val) / 1 = (i 0).val
  omega

/-- The take's range test holds at every index. -/
private theorem inrange_at (x4 : (⟨S32000x50, .i32⟩ : BufTy).Contents (Elt Ideal)) (hr : Cert.Spec.InRange x4)
    (i : S1600000x1x1.Idx) : val_main_call1_v11 (F := Ideal) x4 i = 1#1 := by
  rw [val_main_call1_v11_apply, val_main_call1_v7_apply, val_main_call1_v10_apply, val_main_call1_v6_apply,
    val_main_call1_c_2_apply, val_main_call1_v9_apply, val_main_call1_v8_apply, val_main_call1_c_1_apply, start_at x4 hr]
  exact in_range_word _ (g_range x4 hr _).1 (g_range x4 hr _).2

/-- A fold of `and` from 1 over words that are all 1 is 1. -/
private theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons.2 (Or.inl rfl)), ih (fun i hi => hf i (Finset.mem_cons.2 (Or.inr hi)))]
    rfl

/-- So the reduced range test (an `and` over the unit axis) is 1 at every row. -/
private theorem test_at (x4 : (⟨S32000x50, .i32⟩ : BufTy).Contents (Elt Ideal)) (hr : Cert.Spec.InRange x4)
    (j : S1600000x1.Idx) : val_main_call1_v12 (F := Ideal) x4 j = 1#1 := by
  unfold val_main_call1_v12
  rw [Host.reduce_eq_fold]
  exact fold_andi_one _ _ (fun i _ => inrange_at x4 hr i)

/-- The weight gather's index column at `(r, 0)`: the label word of row `r`. -/
private theorem wcol_at (x4 : (⟨S32000x50, .i32⟩ : BufTy).Contents (Elt Ideal)) (hr : Cert.Spec.InRange x4)
    (r : Fin Cert.Spec.M) (z : Fin 1) :
    val_main_v12 (F := Ideal) x4 (ix2 r z) = Cert.Spec.gAt x4 r := by
  rw [val_main_v12_apply, show idx_main_v12 (ix2 r z) = ix1 r from idx1_ext _ _ rfl,
    val_main_v11_apply, val_main_v8_apply, val_main_v10_apply, val_main_v7_apply, val_main_c_apply,
    val_main_v9_apply, val_main_c_0_apply, lab_at]
  exact norm_word _ (g_range x4 hr r).1

/-! ## The log-softmax of a row -/

/-- The logits as a matrix, at `(r, c)`: logit `c` of row `r`. -/
private theorem logit_at (x0 : (⟨S32x1000x50x14, .f32⟩ : BufTy).Contents (Elt Ideal)) (r : Fin Cert.Spec.M) (c : Fin 14) :
    val_main_v0 (F := Ideal) x0 (ix2 r c) = Cert.Spec.xAt x0 r c := by
  rw [val_main_v0_apply]
  unfold Cert.Spec.xAt
  refine congrArg x0 (funext fun a => Fin.ext ?_)
  have hr : r.val < 1600000 := r.isLt
  have hc : c.val < 14 := c.isLt
  match a with
  | ⟨0, _⟩ => show (r.val * 14 + c.val) / 700000 = r.val / 50000; omega
  | ⟨1, _⟩ => show (r.val * 14 + c.val) / 700 % 1000 = r.val / 50 % 1000; omega
  | ⟨2, _⟩ => show (r.val * 14 + c.val) / 14 % 50 = r.val % 50; omega
  | ⟨3, _⟩ => show (r.val * 14 + c.val) % 14 = c.val; omega

/-- The class axis is the one the two row reductions drop. -/
private theorem hR : S1600000x14.Reduces [1] S1600000 := by decide

/-- The reduce-max over the class axis at row `r`: the fold of `max` from −∞ over the row's logits. -/
private theorem max_at (x0 : (⟨S32x1000x50x14, .f32⟩ : BufTy).Contents (Elt Ideal)) (r : Fin Cert.Spec.M) :
    val_main_call0_v0 (F := Ideal) x0 (ix1 r)
      = (Finset.univ : Finset (Fin 14)).fold max Cert.Spec.negInf (Cert.Spec.xAt x0 r) := by
  unfold val_main_call0_v0
  rw [Host.reduce_eq_fold_single (FloatOps.maximumf (F := Ideal) (φ := .f32)) _ _ _ hR]
  show (Finset.univ : Finset (Fin 14)).fold max Cert.Spec.negInf ((val_main_v0 (F := Ideal) x0) ∘ hR.lift (ix1 r)) = _
  refine Finset.fold_congr (fun (k : Fin 14) _ => ?_)
  exact (congrArg (val_main_v0 (F := Ideal) x0) (idx2_ext (hR.lift (ix1 r) k) r k rfl rfl)).trans (logit_at x0 r k)

/-- The row maximum (the reduce-max, once more against −∞) at row `r`. -/
private theorem rowmax_at (x0 : (⟨S32x1000x50x14, .f32⟩ : BufTy).Contents (Elt Ideal)) (r : Fin Cert.Spec.M) :
    val_main_call0_v2 (F := Ideal) x0 (ix1 r) = Cert.Spec.rowMax (Cert.Spec.xAt x0 r) := by
  rw [val_main_call0_v2_apply, val_main_call0_v1_apply, val_main_call0_cst_0_apply, max_at]
  rfl

/-- The row maximum broadcast along the classes, at `(r, c)`. -/
private theorem rowmax_bc_at (x0 : (⟨S32x1000x50x14, .f32⟩ : BufTy).Contents (Elt Ideal)) (r : Fin Cert.Spec.M) (c : Fin 14) :
    val_main_call0_v4 (F := Ideal) x0 (ix2 r c) = Cert.Spec.rowMax (Cert.Spec.xAt x0 r) := by
  rw [val_main_call0_v4_apply, val_main_call0_v3_apply, ← rowmax_at]
  exact congrArg _ (idx1_ext _ _ rfl)

/-- The shifted logits, at `(r, c)`. -/
private theorem shift_at (x0 : (⟨S32x1000x50x14, .f32⟩ : BufTy).Contents (Elt Ideal)) (r : Fin Cert.Spec.M) (c : Fin 14) :
    val_main_call0_v5 (F := Ideal) x0 (ix2 r c) = Cert.Spec.xAt x0 r c - Cert.Spec.rowMax (Cert.Spec.xAt x0 r) := by
  rw [val_main_call0_v5_apply, logit_at, rowmax_bc_at]
  rfl

/-- The sum of the exponentials of the shifted logits, at row `r` (the sum starts from 0). -/
private theorem sumexp_at (x0 : (⟨S32x1000x50x14, .f32⟩ : BufTy).Contents (Elt Ideal)) (r : Fin Cert.Spec.M) :
    val_main_call0_v7 (F := Ideal) x0 (ix1 r)
      = ∑ c' : Fin 14, Ideal.exp (Cert.Spec.xAt x0 r c' - Cert.Spec.rowMax (Cert.Spec.xAt x0 r)) := by
  rw [val_main_call0_v7_apply, val_main_call0_cst_1_apply, Ideal.ofBits_def, Ideal.ofBits_zero_f32, zero_add]
  refine Finset.sum_congr rfl (fun k _ => ?_)
  rw [val_main_call0_v6_apply, show idx_main_call0_v7 (ix1 r) k = ix2 r k from idx2_ext _ _ _ rfl rfl, shift_at]
  rfl

/-- The log-softmax, at `(r, c)`. -/
private theorem lsm_at (x0 : (⟨S32x1000x50x14, .f32⟩ : BufTy).Contents (Elt Ideal)) (r : Fin Cert.Spec.M) (c : Fin 14) :
    val_main_v2 (F := Ideal) x0 (ix2 r c) = Cert.Spec.lsm (Cert.Spec.xAt x0 r) c := by
  rw [val_main_v2_apply, shift_at, val_main_call0_v10_apply, val_main_call0_v9_apply, val_main_call0_v8_apply,
    show idx_main_call0_v8 (idx_main_call0_v10 (ix2 r c)) = ix1 r from idx1_ext _ _ rfl, sumexp_at]
  rfl

/-! ## The take along the class axis, the weight, and the product -/

/-- The batched gather at `(r, 0)`: the log-softmax of row `r` at the row's class. -/
private theorem take_at (x0 : (⟨S32x1000x50x14, .f32⟩ : BufTy).Contents (Elt Ideal))
    (x4 : (⟨S32000x50, .i32⟩ : BufTy).Contents (Elt Ideal)) (hr : Cert.Spec.InRange x4) (r : Fin Cert.Spec.M) (z : Fin 1) :
    val_main_call1_v13 (F := Ideal) x0 x4 (ix2 r z)
      = Cert.Spec.lsm (Cert.Spec.xAt x0 r) (Cert.Spec.cls (Cert.Spec.gAt x4 r)) := by
  unfold val_main_call1_v13
  have e : gather_S1600000x14_S1600000x1x1_S1600000x1_n_1_0_0_1_2_11
      = Cert.Proof.LibTakeAlong.takeAlongDims 1600000 14 gather_S1600000x14_S1600000x1x1_S1600000x1_n_1_0_0_1_2_11.wf := rfl
  rw [e]
  refine (Cert.Proof.LibTakeAlong.gather_takeAlong_ix2 (by decide) _ _ _ r z).trans ?_
  rw [← lsm_at]
  refine congrArg _ (idx2_ext _ _ _ rfl ?_)
  show min ((val_main_call1_v5 (F := Ideal) x4) (ix3 r (0 : Fin 1) (0 : Fin 1))).toInt.toNat (14 - 1)
    = min (Cert.Spec.gAt x4 r).toInt.toNat 13
  rw [start_at x4 hr]

/-- The gathered weight at row `r`: the weight of the row's class. -/
private theorem weight_at (x3 : (⟨S14, .f32⟩ : BufTy).Contents (Elt Ideal))
    (x4 : (⟨S32000x50, .i32⟩ : BufTy).Contents (Elt Ideal)) (hr : Cert.Spec.InRange x4) (r : Fin Cert.Spec.M) :
    val_main_v13 (F := Ideal) x3 x4 (ix1 r) = Cert.Spec.wAt x3 (Cert.Spec.cls (Cert.Spec.gAt x4 r)) := by
  unfold val_main_v13
  have e : gather_S14_S1600000x1_S1600000_n_0_n_n_0_1_1
      = Cert.LibVecGather.vecGatherDims 14 1600000 gather_S14_S1600000x1_S1600000_n_0_n_n_0_1_1.wf := rfl
  rw [e]
  refine (Cert.LibVecGather.vecGather_apply (by decide) _ x3 _ r).trans ?_
  unfold Cert.Spec.wAt
  refine congrArg x3 (idx1_ext _ _ ?_)
  show min ((val_main_v12 (F := Ideal) x4) (ix2 r (0 : Fin 1))).toInt.toNat (14 - 1)
    = min (Cert.Spec.gAt x4 r).toInt.toNat 13
  rw [wcol_at x4 hr]

/-- The negated take at row `r`: the range test passes, so the select keeps the gathered value. -/
private theorem nll_at (x0 : (⟨S32x1000x50x14, .f32⟩ : BufTy).Contents (Elt Ideal))
    (x4 : (⟨S32000x50, .i32⟩ : BufTy).Contents (Elt Ideal)) (hr : Cert.Spec.InRange x4) (r : Fin Cert.Spec.M) :
    val_main_v6 (F := Ideal) x0 x4 (ix1 r)
      = -(Cert.Spec.lsm (Cert.Spec.xAt x0 r) (Cert.Spec.cls (Cert.Spec.gAt x4 r))) := by
  rw [val_main_v6_apply, val_main_v5_apply,
    show idx_main_v5 (ix1 r) = ix2 r (0 : Fin 1) from idx2_ext _ _ _ (Nat.div_one _) rfl,
    val_main_v4_apply, test_at x4 hr, select_one, take_at x0 x4 hr]
  rfl

/-- Entry `r` of the product `w[tgt] · −logp[tgt]` the reference sums is the specification's cross-entropy term of row `r`. -/
theorem ce_row (x0 : (⟨S32x1000x50x14, .f32⟩ : BufTy).Contents (Elt Ideal)) (x3 : (⟨S14, .f32⟩ : BufTy).Contents (Elt Ideal))
    (x4 : (⟨S32000x50, .i32⟩ : BufTy).Contents (Elt Ideal)) (hr : Cert.Spec.InRange x4) (r : Fin Cert.Spec.M) :
    val_main_v14 (F := Ideal) x0 x3 x4 (ix1 r) = Cert.Spec.ceRow x0 x3 x4 r := by
  rw [val_main_v14_apply, weight_at x3 x4 hr, nll_at x0 x4 hr]
  rfl

/-- So the reference's cross-entropy sum is the specification's. -/
theorem sumA_eq (x0 : (⟨S32x1000x50x14, .f32⟩ : BufTy).Contents (Elt Ideal)) (x3 : (⟨S14, .f32⟩ : BufTy).Contents (Elt Ideal))
    (x4 : (⟨S32000x50, .i32⟩ : BufTy).Contents (Elt Ideal)) (hr : Cert.Spec.InRange x4) :
    val_main_v15 (F := Ideal) x0 x3 x4 = fun _ => Cert.Spec.sumA x0 x3 x4 := by
  funext i
  rw [val_main_v15_apply, val_main_cst_apply, Ideal.ofBits_def, Ideal.ofBits_zero_f32, zero_add]
  unfold Cert.Spec.sumA
  refine (Cert.Spec.sum_idx1_rows _).trans ?_
  exact Finset.sum_congr rfl (fun r _ => ce_row x0 x3 x4 hr r)

end Cert.ReferenceIdeal.RefCe

end
-- ==== Proof.RefAd.lean ====
/-
  The reference's direction sum and matched count are the specification's — when every label is a class index.
-/
import proofs.«424065_j21869973471695_3_alg».proof.Proof.RefRead
import proofs.«424065_j21869973471695_3_alg».proof.Proof.Spec
import proofs.«424065_j21869973471695_3_alg».proof.Proof.SpecSums
import Idealize.ShloMosaic.PureOps.Ideal.Laws
import Idealize.ShloMosaic.Lib.Pipeline.Value
import Idealize.ShloMosaic.Lib.StableHlo.Predicate

noncomputable section

namespace Cert.ReferenceIdeal.RefAd

open Idealize.ShloMosaic Idealize.ShloMosaic.ValueIdx Cert.ReferenceIdeal Cert.ReferenceIdeal.Read

/-! ## One label word -/

/-- For a label in [0, 13] the class index is 13 exactly when the word is the word 13. -/
private theorem cls_eq_13_iff (g : BitVec 32) (h0 : 0 ≤ g.toInt) (h13 : g.toInt ≤ 13) :
    Cert.Spec.cls g = (13 : Fin 14) ↔ g = 13#32 := by
  constructor
  · intro h
    have hv : min g.toInt.toNat 13 = 13 := congrArg Fin.val h
    have ht : g.toInt = (13#32 : BitVec 32).toInt := by
      rw [show (13#32 : BitVec 32).toInt = 13 from by decide]; omega
    exact BitVec.toInt_inj.mp ht
  · intro h
    subst h
    exact Fin.ext (by decide)

/-- The word test "label ≠ 13" is the bit of a matched row. -/
private theorem ne_word (g : BitVec 32) (h0 : 0 ≤ g.toInt) (h13 : g.toInt ≤ 13) :
    IntOp.cmpi .ne g 13#32 = if Cert.Spec.cls g = (13 : Fin 14) then 0#1 else 1#1 := by
  by_cases hg : g = 13#32
  · rw [if_pos ((cls_eq_13_iff g h0 h13).mpr hg), hg]; rfl
  · rw [if_neg (fun h => hg ((cls_eq_13_iff g h0 h13).mp h))]
    have hb : (g != 13#32) = true := bne_iff_ne.mpr hg
    show BitVec.ofBool (g != 13#32) = 1#1
    rw [hb]; rfl

/-- The matched bit converted to a float is the matched indicator. -/
private theorem uitofp_bit (g : BitVec 32) :
    (FloatOps.uitofp (F := Ideal) .f32 (if Cert.Spec.cls g = (13 : Fin 14) then 0#1 else 1#1) : EReal) = Cert.Spec.mtTerm g := by
  unfold Cert.Spec.mtTerm
  by_cases h : Cert.Spec.cls g = (13 : Fin 14)
  · rw [if_pos h, if_pos h]
    show (((0#1 : BitVec 1).toNat : ℝ) : EReal) = 0
    rw [show (0#1 : BitVec 1).toNat = 0 from rfl, Nat.cast_zero, EReal.coe_zero]
  · rw [if_neg h, if_neg h]
    show (((1#1 : BitVec 1).toNat : ℝ) : EReal) = 1
    rw [show (1#1 : BitVec 1).toNat = 1 from rfl, Nat.cast_one, EReal.coe_one]

/-! ## The direction sum -/

/-- The mask's index under the two broadcasts is the row's index. -/
private theorem idx_mask (a : Fin 32000) (b : Fin 50) (d : Fin 3) :
    idx_main_v22 (idx_main_v24 (ix3 a b d)) = ix2 a b := by
  funext e; match e with | ⟨0, _⟩ => rfl | ⟨1, _⟩ => rfl

/-- One element of the masked absolute difference. -/
private theorem v25_at (x1 : (⟨S32x1000x50x3, .f32⟩ : BufTy).Contents (Elt Ideal)) (x2 : (⟨S32000x50x3, .f32⟩ : BufTy).Contents (Elt Ideal))
    (x4 : (⟨S32000x50, .i32⟩ : BufTy).Contents (Elt Ideal)) (hr : Cert.Spec.InRange x4) (a : Fin 32000) (b : Fin 50) (d : Fin 3) :
    val_main_v25 (F := Ideal) x1 x2 x4 (ix3 a b d)
      = max (x1 (idx_main_v17 (ix3 a b d)) - x2 (ix3 a b d)) (-(x1 (idx_main_v17 (ix3 a b d)) - x2 (ix3 a b d)))
          * Cert.Spec.mtTerm (x4 (ix2 a b)) := by
  rw [val_main_v25_apply, val_main_v21_apply, val_main_v20_apply, val_main_v17_apply, val_main_v24_apply,
    val_main_v23_apply, val_main_v22_apply, val_main_v19_apply, val_main_v18_apply, val_main_c_2_apply, idx_mask,
    ne_word _ (hr (ix2 a b)).1 (hr (ix2 a b)).2, uitofp_bit]
  rfl

/-- The reshape's index at row r, component d, is the row's index in the four-axis array. -/
private theorem idx_row (r : Fin Cert.Spec.M) (d : Fin 3) :
    idx_main_v17 (ix3 (⟨r.val / 50, Cert.Spec.row_lt01 r⟩ : Fin 32000) (⟨r.val % 50, Cert.Spec.row_lt2 r⟩ : Fin 50) d)
      = ix4 (⟨r.val / 50000, Cert.Spec.row_lt0 r⟩ : Fin 32) (⟨r.val / 50 % 1000, Cert.Spec.row_lt1 r⟩ : Fin 1000)
          (⟨r.val % 50, Cert.Spec.row_lt2 r⟩ : Fin 50) d := by
  have hr : r.val < 1600000 := r.isLt
  have hd : d.val < 3 := d.isLt
  funext e
  match e with
  | ⟨0, _⟩ => exact Fin.ext (by show ((r.val / 50 * 50 + r.val % 50) * 3 + d.val) / 150000 = r.val / 50000; omega)
  | ⟨1, _⟩ => exact Fin.ext (by show ((r.val / 50 * 50 + r.val % 50) * 3 + d.val) / 150 % 1000 = r.val / 50 % 1000; omega)
  | ⟨2, _⟩ => exact Fin.ext (by show ((r.val / 50 * 50 + r.val % 50) * 3 + d.val) / 3 % 50 = r.val % 50; omega)
  | ⟨3, _⟩ => exact Fin.ext (by show ((r.val / 50 * 50 + r.val % 50) * 3 + d.val) % 3 = d.val; omega)

/-- The reference's sum of the masked absolute differences is the specification's direction sum. -/
theorem sumB_eq (x1 : (⟨S32x1000x50x3, .f32⟩ : BufTy).Contents (Elt Ideal)) (x2 : (⟨S32000x50x3, .f32⟩ : BufTy).Contents (Elt Ideal))
    (x4 : (⟨S32000x50, .i32⟩ : BufTy).Contents (Elt Ideal)) (hr : Cert.Spec.InRange x4) :
    val_main_v31 (F := Ideal) x1 x2 x4 = fun _ => Cert.Spec.sumB x1 x2 x4 := by
  funext i
  rw [val_main_v31_apply, val_main_cst_6_apply, Ideal.ofBits_def, Ideal.ofBits_zero_f32, zero_add,
    Cert.Spec.sum_idx3_rows]
  unfold Cert.Spec.sumB Cert.Spec.adRow Cert.Spec.adTerm
  refine Finset.sum_congr rfl (fun r _ => Finset.sum_congr rfl (fun d _ => ?_))
  rw [v25_at x1 x2 x4 hr, idx_row]
  rfl

/-! ## The matched count -/

/-- The cast of a finite sum of naturals into the extended reals is the sum of the casts. -/
private theorem coe_nat_sum {ι : Type*} (s : Finset ι) (f : ι → ℕ) :
    (((∑ i ∈ s, f i : ℕ) : ℝ) : EReal) = ∑ i ∈ s, ((f i : ℝ) : EReal) := by
  induction s using Finset.cons_induction with
  | empty => rw [Finset.sum_empty, Finset.sum_empty, Nat.cast_zero, EReal.coe_zero]
  | cons a s ha ih => rw [Finset.sum_cons, Finset.sum_cons, Nat.cast_add, EReal.coe_add, ih]

/-- The value of one widened matched bit: 1 for a matched row, else 0. -/
private theorem v26_toNat (x4 : (⟨S32000x50, .i32⟩ : BufTy).Contents (Elt Ideal)) (hr : Cert.Spec.InRange x4) (i : S32000x50.Idx) :
    (val_main_v26 (F := Ideal) x4 i).toNat = if Cert.Spec.cls (x4 i) = (13 : Fin 14) then 0 else 1 := by
  rw [val_main_v26_apply, val_main_v19_apply, val_main_v18_apply, val_main_c_2_apply,
    ne_word _ (hr i).1 (hr i).2, StableHlo.Predicate.toNat_setWidth_bit]
  by_cases h : Cert.Spec.cls (x4 i) = (13 : Fin 14)
  · rw [if_pos h, if_pos h, if_neg (by decide)]
  · rw [if_neg h, if_neg h, if_pos rfl]

/-- The number of matched rows, as a natural number: at most the number of rows. -/
private theorem count_le (x4 : (⟨S32000x50, .i32⟩ : BufTy).Contents (Elt Ideal)) (hr : Cert.Spec.InRange x4) :
    ∑ i : S32000x50.Idx, (val_main_v26 (F := Ideal) x4 i).toNat ≤ 1600000 := by
  rw [Cert.Spec.sum_idx2_rows]
  refine (Finset.sum_le_card_nsmul _ _ 1 (fun r _ => ?_)).trans ?_
  · rw [v26_toNat x4 hr]; split_ifs <;> omega
  · rw [Finset.card_univ, Fintype.card_fin, smul_eq_mul, mul_one]

/-- The reference's count of matched rows (an integer sum, then converted) is the specification's sum of indicators. -/
theorem sumN_eq (x4 : (⟨S32000x50, .i32⟩ : BufTy).Contents (Elt Ideal)) (hr : Cert.Spec.InRange x4) :
    val_main_v28 (F := Ideal) x4 = fun _ => Cert.Spec.sumN x4 := by
  classical
  funext i
  have hle := count_le x4 hr
  -- the integer reduction is the fold of word addition over every index, and it does not wrap
  have hfold : (val_main_v27 (F := Ideal) x4 i).toNat = ∑ j : S32000x50.Idx, (val_main_v26 (F := Ideal) x4 j).toNat := by
    unfold val_main_v27
    rw [Host.reduce_eq_fold, Finset.filter_true_of_mem (fun j _ => Subsingleton.elim _ _)]
    show (Finset.fold IntOp.addi 0#32 (val_main_v26 (F := Ideal) x4) Finset.univ).toNat = _
    exact StableHlo.Predicate.toNat_fold_addi _ _ (lt_of_le_of_lt hle (by norm_num))
  have hlt : (val_main_v27 (F := Ideal) x4 i).toNat < 2 ^ 31 := by rw [hfold]; exact lt_of_le_of_lt hle (by norm_num)
  rw [val_main_v28_apply]
  show (((val_main_v27 (F := Ideal) x4 i).toInt : ℝ) : EReal) = _
  rw [StableHlo.Predicate.toInt_eq_toNat_of_lt hlt, Int.cast_natCast, hfold, Cert.Spec.sum_idx2_rows, coe_nat_sum]
  unfold Cert.Spec.sumN Cert.Spec.mtRow Cert.Spec.gAt Cert.Spec.mtTerm
  refine Finset.sum_congr rfl (fun r _ => ?_)
  rw [v26_toNat x4 hr]
  split_ifs
  · rw [Nat.cast_zero, EReal.coe_zero]
  · rw [Nat.cast_one, EReal.coe_one]

end Cert.ReferenceIdeal.RefAd

end
-- ==== Proof.RefValue.lean ====
/-
  The reference's result is the specification's loss of its arguments, when every label is a class index: its last
  operations are the scalar tail applied to its three sums.
-/
import proofs.«424065_j21869973471695_3_alg».proof.Proof.RefCe
import proofs.«424065_j21869973471695_3_alg».proof.Proof.RefAd

noncomputable section

namespace Cert.ReferenceIdeal.RefValue

open Idealize.ShloMosaic Idealize.ShloMosaic.ValueIdx Cert.ReferenceIdeal Cert.ReferenceIdeal.Read

/-- The reference's last stage is the scalar tail of its three sums: the same operations, in the same order. -/
theorem v37_eq_tail (x0 : (⟨S32x1000x50x14, .f32⟩ : BufTy).Contents (Elt Ideal)) (x1 : (⟨S32x1000x50x3, .f32⟩ : BufTy).Contents (Elt Ideal))
    (x2 : (⟨S32000x50x3, .f32⟩ : BufTy).Contents (Elt Ideal)) (x3 : (⟨S14, .f32⟩ : BufTy).Contents (Elt Ideal))
    (x4 : (⟨S32000x50, .i32⟩ : BufTy).Contents (Elt Ideal)) :
    val_main_v37 (F := Ideal) x0 x1 x2 x3 x4
      = Cert.Spec.tail (val_main_v15 (F := Ideal) x0 x3 x4) (val_main_v31 (F := Ideal) x1 x2 x4) (val_main_v28 (F := Ideal) x4) := rfl

theorem value (x0 : (⟨S32x1000x50x14, .f32⟩ : BufTy).Contents (Elt Ideal)) (x1 : (⟨S32x1000x50x3, .f32⟩ : BufTy).Contents (Elt Ideal))
    (x2 : (⟨S32000x50x3, .f32⟩ : BufTy).Contents (Elt Ideal)) (x3 : (⟨S14, .f32⟩ : BufTy).Contents (Elt Ideal))
    (x4 : (⟨S32000x50, .i32⟩ : BufTy).Contents (Elt Ideal)) (hr : Cert.Spec.InRange x4) :
    val_main_v37 (F := Ideal) x0 x1 x2 x3 x4 = Cert.Spec.loss x0 x1 x2 x3 x4 := by
  rw [v37_eq_tail, RefCe.sumA_eq x0 x3 x4 hr, RefAd.sumB_eq x1 x2 x4 hr, RefAd.sumN_eq x4 hr]
  rfl

end Cert.ReferenceIdeal.RefValue

end
-- ==== Proof.KerPieces.lean ====
/-
  What each case of the kernel body leaves behind, as values.

  The body runs in three cases: the first chunk of a half (the three accumulators are reset to zero, then updated),
  a middle chunk (updated), the last chunk (updated, then each summed over the lanes into the output block).  Each
  accumulator ends a case as the payload of its last store, a function of the loaded tiles and of what the accumulator
  held before; the output block as the closing reduction of the three updated accumulators.
-/
import proofs.«424065_j21869973471695_3_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The class-index row the one-hot comparison is made against. -/
abbrev iotaC : IVec S14x10000 32 := iota .tc S14x10000 32 [0] iota_S14x10000_d0_w32

/-- Case B (a chunk other than the first and the last): what the body leaves in accumulator 0 is its one covering store, the update of what
    the chunk before left. -/
theorem sout_B_0 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : ¬cond0_0 i) (hc1 : ¬cond0_1 i) (x0 : Vec F S1x10000x14 .f32) (x1 : Vec F S1x10000x1 .i32) (x2 : Vec F S1x10000x3 .f32) (x3 : Vec F S1x10000x3 .f32) (x4 : Vec F S1x14 .f32) (xs0 : Vec F S1x10000 .f32) (xs1 : Vec F S1x10000 .f32) (xs2 : Vec F S1x10000 .f32) :
    sout0_B_0 c i arg2 harg2 arg3 harg3 arg4 harg4 arg5 harg5 arg6 harg6 arg7 harg7 arg8 harg8 arg9 harg9 arg10 harg10 hc0 hc1 x0 x1 x2 x3 x4 xs0 xs1 xs2
      = k0_pay11 (k0_pay7 x4) (k0_pay9 x0) iotaC (k0_pay10 (F := F) x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case B (a chunk other than the first and the last): what the body leaves in accumulator 1 is its one covering store, the update of what
    the chunk before left. -/
theorem sout_B_1 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : ¬cond0_0 i) (hc1 : ¬cond0_1 i) (x0 : Vec F S1x10000x14 .f32) (x1 : Vec F S1x10000x1 .i32) (x2 : Vec F S1x10000x3 .f32) (x3 : Vec F S1x10000x3 .f32) (x4 : Vec F S1x14 .f32) (xs0 : Vec F S1x10000 .f32) (xs1 : Vec F S1x10000 .f32) (xs2 : Vec F S1x10000 .f32) :
    sout0_B_1 c i arg2 harg2 arg3 harg3 arg4 harg4 arg5 harg5 arg6 harg6 arg7 harg7 arg8 harg8 arg9 harg9 arg10 harg10 hc0 hc1 x0 x1 x2 x3 x4 xs0 xs1 xs2
      = k0_pay13 (k0_pay5 x2) (k0_pay6 x3) (k0_pay8 (F := F) x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case B (a chunk other than the first and the last): what the body leaves in accumulator 2 is its one covering store, the update of what
    the chunk before left. -/
theorem sout_B_2 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : ¬cond0_0 i) (hc1 : ¬cond0_1 i) (x0 : Vec F S1x10000x14 .f32) (x1 : Vec F S1x10000x1 .i32) (x2 : Vec F S1x10000x3 .f32) (x3 : Vec F S1x10000x3 .f32) (x4 : Vec F S1x14 .f32) (xs0 : Vec F S1x10000 .f32) (xs1 : Vec F S1x10000 .f32) (xs2 : Vec F S1x10000 .f32) :
    sout0_B_2 c i arg2 harg2 arg3 harg3 arg4 harg4 arg5 harg5 arg6 harg6 arg7 harg7 arg8 harg8 arg9 harg9 arg10 harg10 hc0 hc1 x0 x1 x2 x3 x4 xs0 xs1 xs2
      = k0_pay14 (k0_pay8 (F := F) x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case C (a chunk other than the first, the last): what the body leaves in accumulator 0 is its one covering store, the update of what
    the chunk before left. -/
theorem sout_C_0 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : ¬cond0_0 i) (hc1 : cond0_1 i) (x0 : Vec F S1x10000x14 .f32) (x1 : Vec F S1x10000x1 .i32) (x2 : Vec F S1x10000x3 .f32) (x3 : Vec F S1x10000x3 .f32) (x4 : Vec F S1x14 .f32) (xs0 : Vec F S1x10000 .f32) (xs1 : Vec F S1x10000 .f32) (xs2 : Vec F S1x10000 .f32) :
    sout0_C_0 c i arg2 harg2 arg3 harg3 arg4 harg4 arg5 harg5 arg6 harg6 arg7 harg7 arg8 harg8 arg9 harg9 arg10 harg10 hc0 hc1 x0 x1 x2 x3 x4 xs0 xs1 xs2
      = k0_pay11 (k0_pay7 x4) (k0_pay9 x0) iotaC (k0_pay10 (F := F) x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case C (a chunk other than the first, the last): what the body leaves in accumulator 1 is its one covering store, the update of what
    the chunk before left. -/
theorem sout_C_1 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : ¬cond0_0 i) (hc1 : cond0_1 i) (x0 : Vec F S1x10000x14 .f32) (x1 : Vec F S1x10000x1 .i32) (x2 : Vec F S1x10000x3 .f32) (x3 : Vec F S1x10000x3 .f32) (x4 : Vec F S1x14 .f32) (xs0 : Vec F S1x10000 .f32) (xs1 : Vec F S1x10000 .f32) (xs2 : Vec F S1x10000 .f32) :
    sout0_C_1 c i arg2 harg2 arg3 harg3 arg4 harg4 arg5 harg5 arg6 harg6 arg7 harg7 arg8 harg8 arg9 harg9 arg10 harg10 hc0 hc1 x0 x1 x2 x3 x4 xs0 xs1 xs2
      = k0_pay13 (k0_pay5 x2) (k0_pay6 x3) (k0_pay8 (F := F) x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case C (a chunk other than the first, the last): what the body leaves in accumulator 2 is its one covering store, the update of what
    the chunk before left. -/
theorem sout_C_2 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : ¬cond0_0 i) (hc1 : cond0_1 i) (x0 : Vec F S1x10000x14 .f32) (x1 : Vec F S1x10000x1 .i32) (x2 : Vec F S1x10000x3 .f32) (x3 : Vec F S1x10000x3 .f32) (x4 : Vec F S1x14 .f32) (xs0 : Vec F S1x10000 .f32) (xs1 : Vec F S1x10000 .f32) (xs2 : Vec F S1x10000 .f32) :
    sout0_C_2 c i arg2 harg2 arg3 harg3 arg4 harg4 arg5 harg5 arg6 harg6 arg7 harg7 arg8 harg8 arg9 harg9 arg10 harg10 hc0 hc1 x0 x1 x2 x3 x4 xs0 xs1 xs2
      = k0_pay14 (k0_pay8 (F := F) x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case A (the first chunk of a half): the body stores the zero tile into accumulator 0, reads it back and leaves its update. -/
theorem sout_A_0 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : cond0_0 i) (hc1 : ¬cond0_1 i) (x0 : Vec F S1x10000x14 .f32) (x1 : Vec F S1x10000x1 .i32) (x2 : Vec F S1x10000x3 .f32) (x3 : Vec F S1x10000x3 .f32) (x4 : Vec F S1x14 .f32) :
    sout0_A_0 c i arg2 harg2 arg3 harg3 arg4 harg4 arg5 harg5 arg6 harg6 arg7 harg7 arg8 harg8 arg9 harg9 arg10 harg10 hc0 hc1 x0 x1 x2 x3 x4
      = k0_pay11 (k0_pay7 x4) (k0_pay9 x0) iotaC (k0_pay10 (F := F) x1) (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x10000) hz2, View.readCov_unit_zero (S := S1x10000) _ hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case A (the first chunk of a half): the body stores the zero tile into accumulator 1, reads it back and leaves its update. -/
theorem sout_A_1 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : cond0_0 i) (hc1 : ¬cond0_1 i) (x0 : Vec F S1x10000x14 .f32) (x1 : Vec F S1x10000x1 .i32) (x2 : Vec F S1x10000x3 .f32) (x3 : Vec F S1x10000x3 .f32) (x4 : Vec F S1x14 .f32) :
    sout0_A_1 c i arg2 harg2 arg3 harg3 arg4 harg4 arg5 harg5 arg6 harg6 arg7 harg7 arg8 harg8 arg9 harg9 arg10 harg10 hc0 hc1 x0 x1 x2 x3 x4
      = k0_pay13 (k0_pay5 x2) (k0_pay6 x3) (k0_pay8 (F := F) x1) (k0_pay3 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x10000) hz2, View.readCov_unit_zero (S := S1x10000) _ hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case A (the first chunk of a half): the body stores the zero tile into accumulator 2, reads it back and leaves its update. -/
theorem sout_A_2 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : cond0_0 i) (hc1 : ¬cond0_1 i) (x0 : Vec F S1x10000x14 .f32) (x1 : Vec F S1x10000x1 .i32) (x2 : Vec F S1x10000x3 .f32) (x3 : Vec F S1x10000x3 .f32) (x4 : Vec F S1x14 .f32) :
    sout0_A_2 c i arg2 harg2 arg3 harg3 arg4 harg4 arg5 harg5 arg6 harg6 arg7 harg7 arg8 harg8 arg9 harg9 arg10 harg10 hc0 hc1 x0 x1 x2 x3 x4
      = k0_pay14 (k0_pay8 (F := F) x1) (k0_pay4 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x10000) hz2, View.readCov_unit_zero (S := S1x10000) _ hz2]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

/-- Case C (the last chunk of a half): after its three updates the body reads the accumulators back, sums each over the
    lanes and stores the three sums as the output block. -/
theorem out_C_5 (c : Dev nD) (i : grid0.Coords) (arg2 : Memref sig .tc .vmem S1x10000x14 .f32) (harg2 : arg2.IsWhole) (arg3 : Memref sig .tc .vmem S1x10000x1 .i32) (harg3 : arg3.IsWhole) (arg4 : Memref sig .tc .vmem S1x10000x3 .f32) (harg4 : arg4.IsWhole) (arg5 : Memref sig .tc .vmem S1x10000x3 .f32) (harg5 : arg5.IsWhole) (arg6 : Memref sig .tc .vmem S1x14 .f32) (harg6 : arg6.IsWhole) (arg7 : Memref sig .tc .vmem S1x1x3 .f32) (harg7 : arg7.IsWhole) (arg8 : Memref sig .tc .vmem S1x10000 .f32) (harg8 : arg8.IsWhole) (arg9 : Memref sig .tc .vmem S1x10000 .f32) (harg9 : arg9.IsWhole) (arg10 : Memref sig .tc .vmem S1x10000 .f32) (harg10 : arg10.IsWhole) (hc0 : ¬cond0_0 i) (hc1 : cond0_1 i) (x0 : Vec F S1x10000x14 .f32) (x1 : Vec F S1x10000x1 .i32) (x2 : Vec F S1x10000x3 .f32) (x3 : Vec F S1x10000x3 .f32) (x4 : Vec F S1x14 .f32) (xs0 : Vec F S1x10000 .f32) (xs1 : Vec F S1x10000 .f32) (xs2 : Vec F S1x10000 .f32) :
    out0_C_5 c i arg2 harg2 arg3 harg3 arg4 harg4 arg5 harg5 arg6 harg6 arg7 harg7 arg8 harg8 arg9 harg9 arg10 harg10 hc0 hc1 x0 x1 x2 x3 x4 xs0 xs1 xs2
      = k0_pay1 (k0_pay11 (k0_pay7 x4) (k0_pay9 x0) iotaC (k0_pay10 (F := F) x1) xs0) (k0_pay13 (k0_pay5 x2) (k0_pay6 x3) (k0_pay8 (F := F) x1) xs1) (k0_pay14 (k0_pay8 (F := F) x1) xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg8.read_unread, harg9.read_unread, harg10.read_unread, View.ld_unit_zero (S := S1x10000x14) hz3, View.ld_unit_zero (S := S1x10000x1) hz3, View.ld_unit_zero (S := S1x10000x3) hz3, View.ld_unit_zero (S := S1x14) hz2, View.ld_unit_zero (S := S1x10000) hz2, View.readCov_unit_zero (S := S1x10000) _ hz2]

end Cert.KernelIdeal.Pieces

end
-- ==== Proof.KerLane.lean ====
/-
  The kernel body's arithmetic, one lane at a time, at the ideal instance.

  The body works on a tile of 10000 rows laid along the lanes: the logits tile transposed to [14, 10000], the labels to
  [1, 10000], the two direction tiles to [3, 10000], the weights to [14, 1].  Lane `j` of each of its three accumulator
  updates is the accumulator's lane plus the row's term of the specification; the closing reduction sums the lanes.
-/
import proofs.«424065_j21869973471695_3_alg».proof.Proof.Gen.KernelIdeal.Skeleton
import proofs.«424065_j21869973471695_3_alg».proof.Proof.Spec
import proofs.«424065_j21869973471695_3_alg».proof.Proof.SpecSums
import Idealize.ShloMosaic.PureOps.Ideal.Laws
import Idealize.ShloMosaic.Lib.Pipeline.Value
import Idealize.ShloMosaic.Lib.ValueLayout

noncomputable section

namespace Cert.KernelIdeal.Lane

open Idealize.ShloMosaic Idealize.ShloMosaic.ValueIdx Cert.KernelIdeal Cert.KernelIdeal.Gen

/-! ## Words: the clamp of a label, and a compare bit read as a real -/

/-- The signed clamp of a label word into [0, 13] is the word of its class index, whatever the word. -/
private theorem clamp_word (g : BitVec 32) :
    IntOp.minsi 13#32 (IntOp.maxsi 0#32 g) = BitVec.ofNat 32 (Cert.Spec.cls g).val := by
  have h0 : (0#32 : BitVec 32).toInt = 0 := by decide
  have h13 : (13#32 : BitVec 32).toInt = 13 := by decide
  have hg := BitVec.toInt_eq_toNat_cond g
  have hlt := g.isLt
  show _ = BitVec.ofNat 32 (min g.toInt.toNat 13)
  by_cases hneg : g.toInt < 0
  · have hm : IntOp.maxsi 0#32 g = 0#32 := by
      unfold IntOp.maxsi
      exact if_pos (by simp only [BitVec.slt, h0, decide_eq_true_eq]; exact hneg)
    rw [hm, show IntOp.minsi 13#32 0#32 = 0#32 from by decide]
    have hz : g.toInt.toNat = 0 := by omega
    rw [hz]; rfl
  · have hm : IntOp.maxsi 0#32 g = g := by
      unfold IntOp.maxsi
      exact if_neg (by simp only [BitVec.slt, h0, decide_eq_true_eq]; exact hneg)
    rw [hm]
    by_cases hbig : 13 < g.toInt
    · have hn : IntOp.minsi 13#32 g = 13#32 := by
        unfold IntOp.minsi
        exact if_pos (by simp only [BitVec.slt, h13, decide_eq_true_eq]; exact hbig)
      have hz : min g.toInt.toNat 13 = 13 := by omega
      rw [hn, hz]
    · have hn : IntOp.minsi 13#32 g = g := by
        unfold IntOp.minsi
        exact if_neg (by simp only [BitVec.slt, h13, decide_eq_true_eq]; exact hbig)
      rw [hn]
      apply BitVec.eq_of_toNat_eq
      rw [BitVec.toNat_ofNat]
      split at hg <;> omega

/-- A compare bit widened to a word and converted to a float is 1 or 0. -/
private theorem bit_to_real (b : Bool) :
    (FloatOps.sitofp .f32 ((BitVec.ofBool b).setWidth 32) : Ideal .f32) = if b = true then 1 else 0 := by
  cases b
  · rw [show (BitVec.ofBool false).setWidth 32 = 0#32 from by decide]
    show (((0#32 : BitVec 32).toInt : ℝ) : EReal) = _
    rw [show (0#32 : BitVec 32).toInt = 0 from by decide]
    simp
  · rw [show (BitVec.ofBool true).setWidth 32 = 1#32 from by decide]
    show (((1#32 : BitVec 32).toInt : ℝ) : EReal) = _
    rw [show (1#32 : BitVec 32).toInt = 1 from by decide]
    simp

/-- Two class indices have the same word exactly when they are equal. -/
private theorem ofNat_inj14 (c k : Fin 14) : BitVec.ofNat 32 c.val = BitVec.ofNat 32 k.val ↔ c = k := by
  constructor
  · intro he
    have h := congrArg BitVec.toNat he
    simp only [BitVec.toNat_ofNat] at h
    have := c.isLt; have := k.isLt
    exact Fin.ext (by omega)
  · intro he; rw [he]

/-- The one-hot of a class: the compare of class `c`'s word with class `k`'s, as a real. -/
private theorem onehot_word (c k : Fin 14) :
    (FloatOps.sitofp .f32 ((IntOp.cmpi .eq (BitVec.ofNat 32 c.val) (BitVec.ofNat 32 k.val)).setWidth 32) : Ideal .f32)
      = if c = k then (1 : EReal) else 0 := by
  rw [show IntOp.cmpi .eq (BitVec.ofNat 32 c.val) (BitVec.ofNat 32 k.val)
      = BitVec.ofBool (BitVec.ofNat 32 c.val == BitVec.ofNat 32 k.val) from rfl, bit_to_real]
  simp only [beq_iff_eq, ofNat_inj14]

/-- The matched indicator of a class: its word compared unequal to 13's, as a real. -/
private theorem matched_word (k : Fin 14) :
    (FloatOps.sitofp .f32 ((IntOp.cmpi .ne (BitVec.ofNat 32 k.val) 13#32).setWidth 32) : Ideal .f32)
      = if k = (13 : Fin 14) then (0 : EReal) else 1 := by
  rw [show IntOp.cmpi .ne (BitVec.ofNat 32 k.val) 13#32
      = BitVec.ofBool (BitVec.ofNat 32 k.val != 13#32) from rfl, bit_to_real]
  have h13 : (13#32 : BitVec 32) = BitVec.ofNat 32 (13 : Fin 14).val := rfl
  rw [h13]
  by_cases hk : k = (13 : Fin 14)
  · rw [if_pos hk, hk]; simp
  · rw [if_neg hk, if_pos]
    simp only [bne_iff_ne, ne_eq, ofNat_inj14]
    exact hk

/-! ## The loaded tiles, transposed, read at a lane -/

/-- The first direction tile at component `d`, lane `j`. -/
private theorem pay5_at (pb : Vec Ideal S1x10000x3 .f32) (d : Fin 3) (j : Fin 10000) :
    k0_pay5 (F := Ideal) pb (ix2 d j) = pb (ix3 (0 : Fin 1) j d) := by
  unfold k0_pay5
  exact (transpose_ix2_apply _ _ d j).trans (shapeCast_1ab_ab_apply _ _ j d)

/-- The second direction tile likewise. -/
private theorem pay6_at (qb : Vec Ideal S1x10000x3 .f32) (d : Fin 3) (j : Fin 10000) :
    k0_pay6 (F := Ideal) qb (ix2 d j) = qb (ix3 (0 : Fin 1) j d) := by
  unfold k0_pay6
  exact (transpose_ix2_apply _ _ d j).trans (shapeCast_1ab_ab_apply _ _ j d)

/-- The weights as a column: entry `c`. -/
private theorem pay7_at (wb : Vec Ideal S1x14 .f32) (c : Fin 14) :
    k0_pay7 (F := Ideal) wb (ix2 c (0 : Fin 1)) = wb (ix2 (0 : Fin 1) c) := by
  unfold k0_pay7
  refine (transpose_ix2_apply _ _ c (0 : Fin 1)).trans ?_
  rw [shapeCast_self]

/-- The clamped label of lane `j` is the word of the row's class index. -/
private theorem pay8_at (gb : Vec Ideal S1x10000x1 .i32) (j : Fin 10000) :
    k0_pay8 (F := Ideal) gb (ix2 (0 : Fin 1) j)
      = BitVec.ofNat 32 (Cert.Spec.cls (gb (ix3 (0 : Fin 1) j (0 : Fin 1)))).val := by
  unfold k0_pay8
  show IntOp.minsi 13#32 (IntOp.maxsi 0#32
      (transpose S1x10000 [1, 0] (shapeCast S10000x1 gb shapeCasts_S1x10000x1_S10000x1)
        transposes_S10000x1_p1_0_S1x10000 (ix2 (0 : Fin 1) j))) = _
  rw [show transpose S1x10000 [1, 0] (shapeCast S10000x1 gb shapeCasts_S1x10000x1_S10000x1)
        transposes_S10000x1_p1_0_S1x10000 (ix2 (0 : Fin 1) j) = gb (ix3 (0 : Fin 1) j (0 : Fin 1)) from
      (transpose_ix2_apply _ _ (0 : Fin 1) j).trans (shapeCast_1ab_ab_apply _ _ j (0 : Fin 1))]
  exact clamp_word _

/-- The clamped labels spread over the fourteen class rows. -/
private theorem pay10_at (gb : Vec Ideal S1x10000x1 .i32) (c : Fin 14) (j : Fin 10000) :
    k0_pay10 (F := Ideal) gb (ix2 c j)
      = BitVec.ofNat 32 (Cert.Spec.cls (gb (ix3 (0 : Fin 1) j (0 : Fin 1)))).val := by
  unfold k0_pay10
  exact (broadcastTo_1b_ab_apply _ _ c j).trans (pay8_at gb j)

/-- The class counter along the rows: row `c` holds the word of `c`. -/
private theorem iota_at (c : Fin 14) (j : Fin 10000) :
    iota .tc S14x10000 32 [0] iota_S14x10000_d0_w32 (ix2 c j) = BitVec.ofNat 32 c.val :=
  iota_single_apply .tc S14x10000 32 0 iota_S14x10000_d0_w32 (ix2 c j)

/-! ## Reductions over the class rows, and a column spread over the lanes -/

/-- A sum over the rows of a [14, 10000] tile, at lane `j`. -/
private theorem sum14_at (v : FVec Ideal S14x10000 .f32) (j : Fin 10000) :
    multiReduction .add [0] S10000 v 0x00000000#32 reduces_S14x10000_S10000 (.inl rfl) rfl (ix1 j)
      = ∑ c : Fin 14, v (ix2 c j) := by
  refine (Ideal.multiReduction_add_single v 0x00000000#32 reduces_S14x10000_S10000 (.inl rfl) rfl (ix1 j)).trans ?_
  refine Finset.sum_congr rfl fun c _ => congrArg v ?_
  funext a
  match a with
  | ⟨0, _⟩ => rfl
  | ⟨1, _⟩ => rfl

/-- A sum over the rows of a [3, 10000] tile, at lane `j`. -/
private theorem sum3_at (v : FVec Ideal S3x10000 .f32) (j : Fin 10000) :
    multiReduction .add [0] S10000 v 0x00000000#32 reduces_S3x10000_S10000 (.inl rfl) rfl (ix1 j)
      = ∑ d : Fin 3, v (ix2 d j) := by
  refine (Ideal.multiReduction_add_single v 0x00000000#32 reduces_S3x10000_S10000 (.inl rfl) rfl (ix1 j)).trans ?_
  refine Finset.sum_congr rfl fun d _ => congrArg v ?_
  funext a
  match a with
  | ⟨0, _⟩ => rfl
  | ⟨1, _⟩ => rfl

/-- A maximum over the rows of a [14, 10000] tile, from −∞, at lane `j`. -/
private theorem max14_at (v : FVec Ideal S14x10000 .f32) (j : Fin 10000) :
    multiReduction .maximumf [0] S10000 v 0xFF800000#32 reduces_S14x10000_S10000 (.inl rfl) rfl (ix1 j)
      = (Finset.univ : Finset (Fin 14)).fold max Cert.Spec.negInf (fun c => v (ix2 c j)) := by
  refine (Ideal.multiReduction_maximumf_single v 0xFF800000#32 reduces_S14x10000_S10000 (.inl rfl) rfl (ix1 j)).trans ?_
  show (Finset.univ : Finset (Fin 14)).fold max Cert.Spec.negInf _ = _
  congr 1
  funext c
  refine congrArg v ?_
  funext a
  match a with
  | ⟨0, _⟩ => rfl
  | ⟨1, _⟩ => rfl

/-- A [14, 1] column spread over the lanes reads, at `(c, j)`, the column's entry `c`. -/
private theorem bcast_col_at (v : FVec Ideal S14x1 .f32) (c : Fin 14) (j : Fin 10000) :
    broadcastTo S14x10000 v broadcasts_S14x1_S14x10000 (ix2 c j) = v (ix2 c (0 : Fin 1)) := by
  refine broadcastTo_apply v _ (ix2 c j) (ix2 c (0 : Fin 1)) fun ax => ?_
  match ax with
  | ⟨0, _⟩ => rfl
  | ⟨1, _⟩ => rfl

/-! ## Pointwise operations read at an index -/

private theorem exp_at {s : Shape} (v : FVec Ideal s .f32) (i : s.Idx) : exp v i = Ideal.exp (v i) := rfl
private theorem log_at {s : Shape} (v : FVec Ideal s .f32) (i : s.Idx) : log v i = Ideal.log (v i) := rfl
private theorem absf_at {s : Shape} (v : FVec Ideal s .f32) (i : s.Idx) : absf v i = max (v i) (-(v i)) := rfl
private theorem cmpi_at {s : Shape} (p : CmpIPredicate) (a b : IVec s 32) (i : s.Idx) :
    cmpi p a b i = IntOp.cmpi p (a i) (b i) := rfl

/-! ## The log-softmax tile and the matched indicator -/

/-- The log-softmax tile at class `c`, lane `j`: the row's log-softmax at `c`. -/
private theorem pay9_at (xb : Vec Ideal S1x10000x14 .f32) (c : Fin 14) (j : Fin 10000) :
    k0_pay9 (F := Ideal) xb (ix2 c j) = Cert.Spec.lsm (fun c' => xb (ix3 (0 : Fin 1) j c')) c := by
  have hx : ∀ c' : Fin 14,
      transpose S14x10000 [1, 0] (shapeCast S10000x14 xb shapeCasts_S1x10000x14_S10000x14)
        transposes_S10000x14_p1_0_S14x10000 (ix2 c' j) = xb (ix3 (0 : Fin 1) j c') :=
    fun c' => (transpose_ix2_apply _ _ c' j).trans (shapeCast_1ab_ab_apply _ _ j c')
  unfold k0_pay9
  simp only [subf_apply, broadcastTo_1b_ab_apply, shapeCast_a_1a_apply, log_at, maximumf_apply, broadcast_apply]
  rw [sum14_at, max14_at]
  simp only [exp_at, subf_apply, broadcastTo_1b_ab_apply, shapeCast_a_1a_apply, maximumf_apply, broadcast_apply]
  rw [max14_at]
  simp only [hx]
  rfl

/-- The matched indicator at lane `j`, given the class whose word the clamped label is. -/
private theorem pay12_at (v21 : IVec S1x10000 32) (k : Fin 14) (j : Fin 10000)
    (h : v21 (ix2 (0 : Fin 1) j) = BitVec.ofNat 32 k.val) :
    k0_pay12 (F := Ideal) v21 (ix2 (0 : Fin 1) j) = if k = (13 : Fin 14) then (0 : EReal) else 1 := by
  unfold k0_pay12
  show (FloatOps.sitofp .f32 ((IntOp.cmpi .ne (v21 (ix2 (0 : Fin 1) j)) 13#32).setWidth 32) : Ideal .f32) = _
  rw [h]
  exact matched_word k

/-- A sum along the lanes of a [1, 10000] accumulator. -/
private theorem sumLane_at (v : FVec Ideal S1x10000 .f32) :
    multiReduction .add [1] S1 v 0x00000000#32 reduces_S1x10000_S1 (.inl rfl) rfl (ix1 (0 : Fin 1))
      = ∑ j : Fin 10000, v (ix2 (0 : Fin 1) j) := by
  refine (Ideal.multiReduction_add_single v 0x00000000#32 reduces_S1x10000_S1 (.inl rfl) rfl (ix1 (0 : Fin 1))).trans ?_
  refine Finset.sum_congr rfl fun k _ => congrArg v ?_
  funext a
  match a with
  | ⟨0, _⟩ => rfl
  | ⟨1, _⟩ => rfl

/-- The cross-entropy accumulator's update at lane `j`: the old lane plus the row's weighted cross-entropy term, the row's
    logits, label and the weights read off the loaded tiles. -/
theorem pay11_lane (xb : Vec Ideal S1x10000x14 .f32) (gb : Vec Ideal S1x10000x1 .i32) (wb : Vec Ideal S1x14 .f32)
    (acc : Vec Ideal S1x10000 .f32) (j : Fin 10000) :
    k0_pay11 (F := Ideal) (k0_pay7 wb) (k0_pay9 xb) (iota .tc S14x10000 32 [0] iota_S14x10000_d0_w32) (k0_pay10 (F := Ideal) gb) acc
        (ix2 (0 : Fin 1) j)
      = acc (ix2 (0 : Fin 1) j)
        + Cert.Spec.ceTerm (fun c => xb (ix3 (0 : Fin 1) j c)) (fun c => wb (ix2 (0 : Fin 1) c))
            (gb (ix3 (0 : Fin 1) j (0 : Fin 1))) := by
  have hio : ∀ c : Fin 14,
      iota .tc S14x10000 32 [0] iota_S14x10000_d0_w32 (ix2 c j) = BitVec.ofNat 32 c.val := fun c => iota_at c j
  unfold k0_pay11
  simp only [shapeCast_self, addf_apply, mulf_apply, subf_apply, shapeCast_a_1a_apply, broadcast_apply]
  rw [sum14_at, sum14_at]
  simp only [mulf_apply, bcast_col_at, sitofp_apply, extui_apply, cmpi_at, hio, pay10_at, pay9_at, pay7_at,
    onehot_word]
  rw [Cert.Spec.onehot_sum_left, Cert.Spec.onehot_sum_right,
    show (FloatOps.ofBits .f32 0x00000000#32 : Ideal .f32) = 0 from Ideal.ofBits_zero_f32, zero_sub]
  rfl

/-- The direction accumulator's update at lane `j`. -/
theorem pay13_lane (pb qb : Vec Ideal S1x10000x3 .f32) (gb : Vec Ideal S1x10000x1 .i32)
    (acc : Vec Ideal S1x10000 .f32) (j : Fin 10000) :
    k0_pay13 (F := Ideal) (k0_pay5 pb) (k0_pay6 qb) (k0_pay8 (F := Ideal) gb) acc (ix2 (0 : Fin 1) j)
      = acc (ix2 (0 : Fin 1) j)
        + Cert.Spec.adTerm (fun d => pb (ix3 (0 : Fin 1) j d)) (fun d => qb (ix3 (0 : Fin 1) j d))
            (gb (ix3 (0 : Fin 1) j (0 : Fin 1))) := by
  unfold k0_pay13
  simp only [shapeCast_self, addf_apply, shapeCast_a_1a_apply]
  rw [sum3_at]
  simp only [mulf_apply, absf_at, subf_apply, broadcastTo_1b_ab_apply, pay5_at, pay6_at]
  rw [pay12_at _ _ j (pay8_at gb j)]
  rfl

/-- The matched-count accumulator's update at lane `j`. -/
theorem pay14_lane (gb : Vec Ideal S1x10000x1 .i32) (acc : Vec Ideal S1x10000 .f32) (j : Fin 10000) :
    k0_pay14 (F := Ideal) (k0_pay8 (F := Ideal) gb) acc (ix2 (0 : Fin 1) j)
      = acc (ix2 (0 : Fin 1) j) + Cert.Spec.mtTerm (gb (ix3 (0 : Fin 1) j (0 : Fin 1))) := by
  unfold k0_pay14
  simp only [shapeCast_self, addf_apply]
  rw [pay12_at _ _ j (pay8_at gb j)]
  rfl

/-- The three resets store zero in every lane. -/
theorem pay2_lane (y : S1x10000.Idx) : k0_pay2 (F := Ideal) y = 0 := by
  unfold k0_pay2
  simp only [shapeCast_self, broadcast_apply]
  exact Ideal.ofBits_zero_f32
theorem pay3_lane (y : S1x10000.Idx) : k0_pay3 (F := Ideal) y = 0 := by
  unfold k0_pay3
  simp only [shapeCast_self, broadcast_apply]
  exact Ideal.ofBits_zero_f32
theorem pay4_lane (y : S1x10000.Idx) : k0_pay4 (F := Ideal) y = 0 := by
  unfold k0_pay4
  simp only [shapeCast_self, broadcast_apply]
  exact Ideal.ofBits_zero_f32

/-- The closing store: entry `q` of the [1, 1, 3] output block is the sum over the lanes of accumulator `q`. -/
theorem pay1_apply (a b n : Vec Ideal S1x10000 .f32) (q : Fin 3) :
    k0_pay1 (F := Ideal) a b n (ix3 (0 : Fin 1) (0 : Fin 1) q)
      = ∑ j : Fin 10000, (match q with | ⟨0, _⟩ => a | ⟨1, _⟩ => b | ⟨2, _⟩ => n) (ix2 (0 : Fin 1) j) := by
  unfold k0_pay1
  refine (shapeCast_ab_1ab_apply _ _ (0 : Fin 1) (0 : Fin 1) q).trans ?_
  match q with
  | ⟨0, _⟩ =>
    refine (concatenate_apply_piece (t := S1x3) 1 _ _ (ix2 (0 : Fin 1) (⟨0, _⟩ : Fin 3)) 0 ?_ S1x1
      (shapeCast S1x1 (multiReduction .add [1] S1 a 0x00000000#32 reduces_S1x10000_S1 (.inl rfl) rfl) shapeCasts_S1_S1x1)
      ?_ rfl 0 ?_ (ix2 (0 : Fin 1) (0 : Fin 1)) (fun d hd => ?_) ?_).trans ?_
    · show 0 < 3; omega
    · rfl
    · rfl
    · match d with
      | ⟨0, _⟩ => rfl
      | ⟨1, _⟩ => exact absurd rfl hd
    · rfl
    · exact (shapeCast_a_1a_apply _ _ (0 : Fin 1) (0 : Fin 1)).trans (sumLane_at a)
  | ⟨1, _⟩ =>
    refine (concatenate_apply_piece (t := S1x3) 1 _ _ (ix2 (0 : Fin 1) (⟨1, _⟩ : Fin 3)) 1 ?_ S1x1
      (shapeCast S1x1 (multiReduction .add [1] S1 b 0x00000000#32 reduces_S1x10000_S1 (.inl rfl) rfl) shapeCasts_S1_S1x1)
      ?_ rfl 1 ?_ (ix2 (0 : Fin 1) (0 : Fin 1)) (fun d hd => ?_) ?_).trans ?_
    · show 1 < 3; omega
    · rfl
    · rfl
    · match d with
      | ⟨0, _⟩ => rfl
      | ⟨1, _⟩ => exact absurd rfl hd
    · rfl
    · exact (shapeCast_a_1a_apply _ _ (0 : Fin 1) (0 : Fin 1)).trans (sumLane_at b)
  | ⟨2, _⟩ =>
    refine (concatenate_apply_piece (t := S1x3) 1 _ _ (ix2 (0 : Fin 1) (⟨2, _⟩ : Fin 3)) 2 ?_ S1x1
      (shapeCast S1x1 (multiReduction .add [1] S1 n 0x00000000#32 reduces_S1x10000_S1 (.inl rfl) rfl) shapeCasts_S1_S1x1)
      ?_ rfl 2 ?_ (ix2 (0 : Fin 1) (0 : Fin 1)) (fun d hd => ?_) ?_).trans ?_
    · show 2 < 3; omega
    · rfl
    · rfl
    · match d with
      | ⟨0, _⟩ => rfl
      | ⟨1, _⟩ => exact absurd rfl hd
    · rfl
    · exact (shapeCast_a_1a_apply _ _ (0 : Fin 1) (0 : Fin 1)).trans (sumLane_at n)

end Cert.KernelIdeal.Lane

end
-- ==== Proof.KerBlocks.lean ====
/-
  What the windows' blocks hold: grid point `t = 80·p + k` (half `p`, chunk `k`) stages rows
  800000·p + 10000·k + j, j < 10000, of the reshaped arguments; lane `j` of each block is that row of the argument.
-/
import proofs.«424065_j21869973471695_3_alg».proof.Proof.Gen.KernelIdeal.Frame
import proofs.«424065_j21869973471695_3_alg».proof.Proof.Spec
import Idealize.ShloMosaic.Lib.Pipeline.Value
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem rowOf_lt (t : Fin cfg0.N) (j : Fin 10000) : t.val / 80 * 800000 + t.val % 80 * 10000 + j.val < Cert.Spec.M := by
  have hN : t.val < 160 := lt_of_lt_of_eq t.isLt (show cfg0.N = 160 from N_0)
  have := j.isLt
  show _ < 1600000
  omega

/-- The row that lane `j` of grid point `t` holds. -/
def rowOf (t : Fin cfg0.N) (j : Fin 10000) : Fin Cert.Spec.M := ⟨t.val / 80 * 800000 + t.val % 80 * 10000 + j.val, rowOf_lt t j⟩

/-! ## The arrays the windows stage

Each staged array is a reshape of one argument: the same words in row-major order under another shape. -/

/-- The logits as the region finds them: the first argument read as 2 × 800000 × 14. -/
private theorem V_v0 (c : Dev nD) :
    (V m c main_v0 : S2x800000x14.Idx → EReal)
      = shapeCast S2x800000x14 (m ((c : Thread nD τ).loc main_arg0)) shapeCasts_S32x1000x50x14_S2x800000x14 := by
  dsimp only [Gen.V, Gen.V0]
  simp only [Gen.hostOps0, List.flatten_cons, List.flatten_nil, List.append_nil]
  after_results
  rfl

/-- The labels as the region finds them: the fifth argument read as 2 × 800000 × 1. -/
private theorem V_v3 (c : Dev nD) :
    (V m c main_v3 : S2x800000x1.Idx → BitVec 32)
      = shapeCast S2x800000x1 (m ((c : Thread nD τ).loc main_arg4)) shapeCasts_S32000x50_S2x800000x1 := by
  dsimp only [Gen.V, Gen.V0]
  simp only [Gen.hostOps0, List.flatten_cons, List.flatten_nil, List.append_nil]
  after_results
  rfl

/-- The predicted directions as the region finds them: the second argument read as 2 × 800000 × 3. -/
private theorem V_v1 (c : Dev nD) :
    (V m c main_v1 : S2x800000x3.Idx → EReal)
      = shapeCast S2x800000x3 (m ((c : Thread nD τ).loc main_arg1)) shapeCasts_S32x1000x50x3_S2x800000x3 := by
  dsimp only [Gen.V, Gen.V0]
  simp only [Gen.hostOps0, List.flatten_cons, List.flatten_nil, List.append_nil]
  after_results
  rfl

/-- The target directions as the region finds them: the third argument read as 2 × 800000 × 3. -/
private theorem V_v2 (c : Dev nD) :
    (V m c main_v2 : S2x800000x3.Idx → EReal)
      = shapeCast S2x800000x3 (m ((c : Thread nD τ).loc main_arg2)) shapeCasts_S32000x50x3_S2x800000x3 := by
  dsimp only [Gen.V, Gen.V0]
  simp only [Gen.hostOps0, List.flatten_cons, List.flatten_nil, List.append_nil]
  after_results
  rfl

/-- The class weights as the region finds them: the fourth argument read as 1 × 14. -/
private theorem V_v4 (c : Dev nD) :
    (V m c main_v4 : S1x14.Idx → EReal)
      = shapeCast S1x14 (m ((c : Thread nD τ).loc main_arg3)) shapeCasts_S14_S1x14 := by
  dsimp only [Gen.V, Gen.V0]
  simp only [Gen.hostOps0, List.flatten_cons, List.flatten_nil, List.append_nil]
  after_results
  rfl

/-! ## Which block a grid point stages

Point `t = 80·p + k` of the 2 × 80 grid stages block `(p, k, 0)` of each of the four row arrays, and block `(0, 0)`
of the weights: decided once over the 160 points. -/

private theorem idx0 : ∀ t : Fin cfg0.N, win0_0.index t (0 : Fin 3) = t.val / 80 ∧ win0_0.index t (1 : Fin 3) = t.val % 80 ∧ win0_0.index t (2 : Fin 3) = 0 :=
  (by decide +kernel : ∀ t : Fin grid0.N, _)

private theorem idx1 : ∀ t : Fin cfg0.N, win0_1.index t (0 : Fin 3) = t.val / 80 ∧ win0_1.index t (1 : Fin 3) = t.val % 80 ∧ win0_1.index t (2 : Fin 3) = 0 :=
  (by decide +kernel : ∀ t : Fin grid0.N, _)

private theorem idx2 : ∀ t : Fin cfg0.N, win0_2.index t (0 : Fin 3) = t.val / 80 ∧ win0_2.index t (1 : Fin 3) = t.val % 80 ∧ win0_2.index t (2 : Fin 3) = 0 :=
  (by decide +kernel : ∀ t : Fin grid0.N, _)

private theorem idx3 : ∀ t : Fin cfg0.N, win0_3.index t (0 : Fin 3) = t.val / 80 ∧ win0_3.index t (1 : Fin 3) = t.val % 80 ∧ win0_3.index t (2 : Fin 3) = 0 :=
  (by decide +kernel : ∀ t : Fin grid0.N, _)

private theorem idx4 : ∀ t : Fin cfg0.N, win0_4.index t (0 : Fin 2) = 0 ∧ win0_4.index t (1 : Fin 2) = 0 :=
  (by decide +kernel : ∀ t : Fin grid0.N, _)

/-! ## The blocks at an index

A block's coordinate along an axis is (block index) × (block extent) + (the coordinate inside the block); the reshape
keeps the row-major position. So lane `j` of point `t`'s block sits at row-major position
`(800000·p + 10000·k + j)·w + c` of the argument (`w` the row width), which is row `rowOf t j`, column `c`. -/

theorem blk0_apply (c : Dev nD) (t : Fin cfg0.N) (j : Fin 10000) (cc : Fin 14) :
    (iblk m c 0 t : Vec Ideal S1x10000x14 .f32) (ix3 (0 : Fin 1) j cc)
      = Cert.Spec.xAt (m ((c : Thread nD τ).loc main_arg0)) (rowOf t j) cc := by
  obtain ⟨h0, h1, h2⟩ := idx0 t
  have hN : t.val < 160 := lt_of_lt_of_eq t.isLt (show cfg0.N = 160 from N_0)
  have hj := j.isLt
  have hc := cc.isLt
  unfold iblk
  rw [View.read_apply]
  show V m c main_v0 _ = _
  rw [V_v0 m c]
  unfold Cert.Spec.xAt
  refine shapeCast_apply _ _ _ _ ?_
  show (S32x1000x50x14.rowMajor _).val = (S2x800000x14.rowMajor _).val
  rw [Shape.rowMajor_val_four, Shape.rowMajor_val_three]
  show ((((rowOf t j).val / 50000) * 1000 + (rowOf t j).val / 50 % 1000) * 50 + (rowOf t j).val % 50) * 14 + cc.val
      = ((win0_0.index t 0 * 1 + 1 * 0) * 800000 + (win0_0.index t 1 * 10000 + 1 * j.val)) * 14 + (win0_0.index t 2 * 14 + 1 * cc.val)
  rw [h0, h1, h2]
  show ((((t.val / 80 * 800000 + t.val % 80 * 10000 + j.val) / 50000) * 1000 + (t.val / 80 * 800000 + t.val % 80 * 10000 + j.val) / 50 % 1000) * 50 + (t.val / 80 * 800000 + t.val % 80 * 10000 + j.val) % 50) * 14 + cc.val = _
  omega

theorem blk1_apply (c : Dev nD) (t : Fin cfg0.N) (j : Fin 10000) :
    (iblk m c 1 t : Vec Ideal S1x10000x1 .i32) (ix3 (0 : Fin 1) j (0 : Fin 1))
      = Cert.Spec.gAt (m ((c : Thread nD τ).loc main_arg4)) (rowOf t j) := by
  obtain ⟨h0, h1, h2⟩ := idx1 t
  have hN : t.val < 160 := lt_of_lt_of_eq t.isLt (show cfg0.N = 160 from N_0)
  have hj := j.isLt
  unfold iblk
  rw [View.read_apply]
  show V m c main_v3 _ = _
  rw [V_v3 m c]
  unfold Cert.Spec.gAt
  refine shapeCast_apply _ _ _ _ ?_
  show (S32000x50.rowMajor _).val = (S2x800000x1.rowMajor _).val
  rw [Shape.rowMajor_val_two, Shape.rowMajor_val_three]
  show (rowOf t j).val / 50 * 50 + (rowOf t j).val % 50
      = ((win0_1.index t 0 * 1 + 1 * 0) * 800000 + (win0_1.index t 1 * 10000 + 1 * j.val)) * 1 + (win0_1.index t 2 * 1 + 1 * 0)
  rw [h0, h1, h2]
  show (t.val / 80 * 800000 + t.val % 80 * 10000 + j.val) / 50 * 50 + (t.val / 80 * 800000 + t.val % 80 * 10000 + j.val) % 50 = _
  omega

theorem blk2_apply (c : Dev nD) (t : Fin cfg0.N) (j : Fin 10000) (d : Fin 3) :
    (iblk m c 2 t : Vec Ideal S1x10000x3 .f32) (ix3 (0 : Fin 1) j d)
      = Cert.Spec.pAt (m ((c : Thread nD τ).loc main_arg1)) (rowOf t j) d := by
  obtain ⟨h0, h1, h2⟩ := idx2 t
  have hN : t.val < 160 := lt_of_lt_of_eq t.isLt (show cfg0.N = 160 from N_0)
  have hj := j.isLt
  have hd := d.isLt
  unfold iblk
  rw [View.read_apply]
  show V m c main_v1 _ = _
  rw [V_v1 m c]
  unfold Cert.Spec.pAt
  refine shapeCast_apply _ _ _ _ ?_
  show (S32x1000x50x3.rowMajor _).val = (S2x800000x3.rowMajor _).val
  rw [Shape.rowMajor_val_four, Shape.rowMajor_val_three]
  show ((((rowOf t j).val / 50000) * 1000 + (rowOf t j).val / 50 % 1000) * 50 + (rowOf t j).val % 50) * 3 + d.val
      = ((win0_2.index t 0 * 1 + 1 * 0) * 800000 + (win0_2.index t 1 * 10000 + 1 * j.val)) * 3 + (win0_2.index t 2 * 3 + 1 * d.val)
  rw [h0, h1, h2]
  show ((((t.val / 80 * 800000 + t.val % 80 * 10000 + j.val) / 50000) * 1000 + (t.val / 80 * 800000 + t.val % 80 * 10000 + j.val) / 50 % 1000) * 50 + (t.val / 80 * 800000 + t.val % 80 * 10000 + j.val) % 50) * 3 + d.val = _
  omega

theorem blk3_apply (c : Dev nD) (t : Fin cfg0.N) (j : Fin 10000) (d : Fin 3) :
    (iblk m c 3 t : Vec Ideal S1x10000x3 .f32) (ix3 (0 : Fin 1) j d)
      = Cert.Spec.qAt (m ((c : Thread nD τ).loc main_arg2)) (rowOf t j) d := by
  obtain ⟨h0, h1, h2⟩ := idx3 t
  have hN : t.val < 160 := lt_of_lt_of_eq t.isLt (show cfg0.N = 160 from N_0)
  have hj := j.isLt
  have hd := d.isLt
  unfold iblk
  rw [View.read_apply]
  show V m c main_v2 _ = _
  rw [V_v2 m c]
  unfold Cert.Spec.qAt
  refine shapeCast_apply _ _ _ _ ?_
  show (S32000x50x3.rowMajor _).val = (S2x800000x3.rowMajor _).val
  rw [Shape.rowMajor_val_three, Shape.rowMajor_val_three]
  show ((rowOf t j).val / 50 * 50 + (rowOf t j).val % 50) * 3 + d.val
      = ((win0_3.index t 0 * 1 + 1 * 0) * 800000 + (win0_3.index t 1 * 10000 + 1 * j.val)) * 3 + (win0_3.index t 2 * 3 + 1 * d.val)
  rw [h0, h1, h2]
  show ((t.val / 80 * 800000 + t.val % 80 * 10000 + j.val) / 50 * 50 + (t.val / 80 * 800000 + t.val % 80 * 10000 + j.val) % 50) * 3 + d.val = _
  omega

theorem blk4_apply (c : Dev nD) (t : Fin cfg0.N) (cc : Fin 14) :
    (iblk m c 4 t : Vec Ideal S1x14 .f32) (ix2 (0 : Fin 1) cc)
      = Cert.Spec.wAt (m ((c : Thread nD τ).loc main_arg3)) cc := by
  obtain ⟨h0, h1⟩ := idx4 t
  have hc := cc.isLt
  unfold iblk
  rw [View.read_apply]
  show V m c main_v4 _ = _
  rw [V_v4 m c]
  unfold Cert.Spec.wAt
  refine shapeCast_apply _ _ _ _ ?_
  show (S14.rowMajor _).val = (S1x14.rowMajor _).val
  rw [Shape.rowMajor_val_one, Shape.rowMajor_val_two]
  show cc.val = (win0_4.index t 0 * 1 + 1 * 0) * 14 + (win0_4.index t 1 * 14 + 1 * cc.val)
  rw [h0, h1]
  omega

end Cert.KernelIdeal.Blocks

end
-- ==== Proof.KerAcc.lean ====
/-
  The three accumulators, chunk by chunk.

  Grid point `t = 80·p + k` is chunk `k` of half `p`.  After it, lane `j` of each accumulator holds the sum, over the
  chunks `k' ≤ k` of that half, of the row term of row 800000·p + 10000·k' + j: the first chunk starts from the zero
  the reset stored, every later chunk adds its row's term to what the chunk before left.  By induction on the point.
-/
import proofs.«424065_j21869973471695_3_alg».proof.Proof.KerPieces
import proofs.«424065_j21869973471695_3_alg».proof.Proof.KerLane
import proofs.«424065_j21869973471695_3_alg».proof.Proof.KerBlocks

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Pieces Cert.KernelIdeal.Blocks

variable (m : (ℓ : Loc nD τ sig) → Buf (Elt Ideal) ℓ)

/-- The five argument arrays of core `c`. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)

/-- The three row terms as functions of a natural row number (zero past the last row). -/
def ceN (c : Dev nD) (r : ℕ) : EReal := if h : r < Cert.Spec.M then Cert.Spec.ceRow (A0 m c) (A3 m c) (A4 m c) ⟨r, h⟩ else 0
def adN (c : Dev nD) (r : ℕ) : EReal := if h : r < Cert.Spec.M then Cert.Spec.adRow (A1 m c) (A2 m c) (A4 m c) ⟨r, h⟩ else 0
def mtN (c : Dev nD) (r : ℕ) : EReal := if h : r < Cert.Spec.M then Cert.Spec.mtRow (A4 m c) ⟨r, h⟩ else 0

theorem ceN_rowOf (c : Dev nD) (t : Fin cfg0.N) (j : Fin 10000) :
    Cert.Spec.ceRow (A0 m c) (A3 m c) (A4 m c) (rowOf t j) = ceN m c (t.val / 80 * 800000 + t.val % 80 * 10000 + j.val) := by
  unfold ceN; rw [dif_pos (rowOf_lt t j)]; rfl
theorem adN_rowOf (c : Dev nD) (t : Fin cfg0.N) (j : Fin 10000) :
    Cert.Spec.adRow (A1 m c) (A2 m c) (A4 m c) (rowOf t j) = adN m c (t.val / 80 * 800000 + t.val % 80 * 10000 + j.val) := by
  unfold adN; rw [dif_pos (rowOf_lt t j)]; rfl
theorem mtN_rowOf (c : Dev nD) (t : Fin cfg0.N) (j : Fin 10000) :
    Cert.Spec.mtRow (A4 m c) (rowOf t j) = mtN m c (t.val / 80 * 800000 + t.val % 80 * 10000 + j.val) := by
  unfold mtN; rw [dif_pos (rowOf_lt t j)]; rfl

/-! ## One chunk's update at a lane, over the point's blocks -/

/-- The cross-entropy update of point `t` at lane `j`: the old lane plus the row's term. -/
theorem lane_ce (c : Dev nD) (t : Fin cfg0.N) (acc : Vec Ideal S1x10000 .f32) (j : Fin 10000) :
    k0_pay11 (F := Ideal) (k0_pay7 (iblk m c 4 t)) (k0_pay9 (iblk m c 0 t)) iotaC (k0_pay10 (F := Ideal) (iblk m c 1 t)) acc (ix2 (0 : Fin 1) j)
      = acc (ix2 (0 : Fin 1) j) + ceN m c (t.val / 80 * 800000 + t.val % 80 * 10000 + j.val) := by
  refine (Cert.KernelIdeal.Lane.pay11_lane (iblk m c 0 t) (iblk m c 1 t) (iblk m c 4 t) acc j).trans ?_
  rw [← ceN_rowOf]
  unfold Cert.Spec.ceRow
  have e0 : (fun cc => (iblk m c 0 t : Vec Ideal S1x10000x14 .f32) (ix3 (0 : Fin 1) j cc)) = Cert.Spec.xAt (A0 m c) (rowOf t j) :=
    funext fun cc => blk0_apply m c t j cc
  have e4 : (fun cc => (iblk m c 4 t : Vec Ideal S1x14 .f32) (ix2 (0 : Fin 1) cc)) = Cert.Spec.wAt (A3 m c) :=
    funext fun cc => blk4_apply m c t cc
  have e1 := blk1_apply m c t j
  exact congrArg (acc (ix2 (0 : Fin 1) j) + ·) (congr (congr (congrArg Cert.Spec.ceTerm e0) e4) e1)

/-- The direction update of point `t` at lane `j`. -/
theorem lane_ad (c : Dev nD) (t : Fin cfg0.N) (acc : Vec Ideal S1x10000 .f32) (j : Fin 10000) :
    k0_pay13 (F := Ideal) (k0_pay5 (iblk m c 2 t)) (k0_pay6 (iblk m c 3 t)) (k0_pay8 (F := Ideal) (iblk m c 1 t)) acc (ix2 (0 : Fin 1) j)
      = acc (ix2 (0 : Fin 1) j) + adN m c (t.val / 80 * 800000 + t.val % 80 * 10000 + j.val) := by
  refine (Cert.KernelIdeal.Lane.pay13_lane (iblk m c 2 t) (iblk m c 3 t) (iblk m c 1 t) acc j).trans ?_
  rw [← adN_rowOf]
  unfold Cert.Spec.adRow
  have e2 : (fun d => (iblk m c 2 t : Vec Ideal S1x10000x3 .f32) (ix3 (0 : Fin 1) j d)) = Cert.Spec.pAt (A1 m c) (rowOf t j) :=
    funext fun d => blk2_apply m c t j d
  have e3 : (fun d => (iblk m c 3 t : Vec Ideal S1x10000x3 .f32) (ix3 (0 : Fin 1) j d)) = Cert.Spec.qAt (A2 m c) (rowOf t j) :=
    funext fun d => blk3_apply m c t j d
  have e1 := blk1_apply m c t j
  exact congrArg (acc (ix2 (0 : Fin 1) j) + ·) (congr (congr (congrArg Cert.Spec.adTerm e2) e3) e1)

/-- The matched-count update of point `t` at lane `j`. -/
theorem lane_mt (c : Dev nD) (t : Fin cfg0.N) (acc : Vec Ideal S1x10000 .f32) (j : Fin 10000) :
    k0_pay14 (F := Ideal) (k0_pay8 (F := Ideal) (iblk m c 1 t)) acc (ix2 (0 : Fin 1) j)
      = acc (ix2 (0 : Fin 1) j) + mtN m c (t.val / 80 * 800000 + t.val % 80 * 10000 + j.val) := by
  refine (Cert.KernelIdeal.Lane.pay14_lane (iblk m c 1 t) acc j).trans ?_
  rw [← mtN_rowOf]
  unfold Cert.Spec.mtRow
  exact congrArg (acc (ix2 (0 : Fin 1) j) + ·) (congrArg Cert.Spec.mtTerm (blk1_apply m c t j))

/-! ## What a point leaves, by case -/

/-- The first chunk of a half: each accumulator is its update of the zero tile. -/
theorem outs_A (c : Dev nD) (t : Fin cfg0.N) (h0 : t.val % 80 = 0) (h1 : ¬t.val % 80 = 79) :
    (outsAt0 m c t.val t.isLt).2.1 = k0_pay11 (F := Ideal) (k0_pay7 (iblk m c 4 t)) (k0_pay9 (iblk m c 0 t)) iotaC (k0_pay10 (F := Ideal) (iblk m c 1 t)) (k0_pay2 (F := Ideal))
    ∧ (outsAt0 m c t.val t.isLt).2.2.1 = k0_pay13 (F := Ideal) (k0_pay5 (iblk m c 2 t)) (k0_pay6 (iblk m c 3 t)) (k0_pay8 (F := Ideal) (iblk m c 1 t)) (k0_pay3 (F := Ideal))
    ∧ (outsAt0 m c t.val t.isLt).2.2.2 = k0_pay14 (F := Ideal) (k0_pay8 (F := Ideal) (iblk m c 1 t)) (k0_pay4 (F := Ideal)) := by
  rw [outsAt0_A m c t h0 h1]
  dsimp only
  exact ⟨sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t),
    sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)⟩

/-- A middle chunk: each accumulator is its update of what the chunk before left. -/
theorem outs_B (c : Dev nD) (t : Fin cfg0.N) (h0 : ¬t.val % 80 = 0) (h1 : ¬t.val % 80 = 79) :
    (outsAt0 m c t.val t.isLt).2.1 = k0_pay11 (F := Ideal) (k0_pay7 (iblk m c 4 t)) (k0_pay9 (iblk m c 0 t)) iotaC (k0_pay10 (F := Ideal) (iblk m c 1 t)) (outsAt0 m c (t.val - 1) (Nat.lt_of_le_of_lt (Nat.sub_le _ _) t.isLt)).2.1
    ∧ (outsAt0 m c t.val t.isLt).2.2.1 = k0_pay13 (F := Ideal) (k0_pay5 (iblk m c 2 t)) (k0_pay6 (iblk m c 3 t)) (k0_pay8 (F := Ideal) (iblk m c 1 t)) (outsAt0 m c (t.val - 1) (Nat.lt_of_le_of_lt (Nat.sub_le _ _) t.isLt)).2.2.1
    ∧ (outsAt0 m c t.val t.isLt).2.2.2 = k0_pay14 (F := Ideal) (k0_pay8 (F := Ideal) (iblk m c 1 t)) (outsAt0 m c (t.val - 1) (Nat.lt_of_le_of_lt (Nat.sub_le _ _) t.isLt)).2.2.2 := by
  rw [outsAt0_B m c t h0 h1]
  dsimp only
  exact ⟨sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last chunk of a half: the accumulators are updated as in a middle chunk, and the output block is the closing
    reduction of the three updated accumulators. -/
theorem outs_C (c : Dev nD) (t : Fin cfg0.N) (h0 : ¬t.val % 80 = 0) (h1 : t.val % 80 = 79) :
    (outsAt0 m c t.val t.isLt).2.1 = k0_pay11 (F := Ideal) (k0_pay7 (iblk m c 4 t)) (k0_pay9 (iblk m c 0 t)) iotaC (k0_pay10 (F := Ideal) (iblk m c 1 t)) (outsAt0 m c (t.val - 1) (Nat.lt_of_le_of_lt (Nat.sub_le _ _) t.isLt)).2.1
    ∧ (outsAt0 m c t.val t.isLt).2.2.1 = k0_pay13 (F := Ideal) (k0_pay5 (iblk m c 2 t)) (k0_pay6 (iblk m c 3 t)) (k0_pay8 (F := Ideal) (iblk m c 1 t)) (outsAt0 m c (t.val - 1) (Nat.lt_of_le_of_lt (Nat.sub_le _ _) t.isLt)).2.2.1
    ∧ (outsAt0 m c t.val t.isLt).2.2.2 = k0_pay14 (F := Ideal) (k0_pay8 (F := Ideal) (iblk m c 1 t)) (outsAt0 m c (t.val - 1) (Nat.lt_of_le_of_lt (Nat.sub_le _ _) t.isLt)).2.2.2
    ∧ (outsAt0 m c t.val t.isLt).1 = k0_pay1 (F := Ideal) (k0_pay11 (F := Ideal) (k0_pay7 (iblk m c 4 t)) (k0_pay9 (iblk m c 0 t)) iotaC (k0_pay10 (F := Ideal) (iblk m c 1 t)) (outsAt0 m c (t.val - 1) (Nat.lt_of_le_of_lt (Nat.sub_le _ _) t.isLt)).2.1) (k0_pay13 (F := Ideal) (k0_pay5 (iblk m c 2 t)) (k0_pay6 (iblk m c 3 t)) (k0_pay8 (F := Ideal) (iblk m c 1 t)) (outsAt0 m c (t.val - 1) (Nat.lt_of_le_of_lt (Nat.sub_le _ _) t.isLt)).2.2.1) (k0_pay14 (F := Ideal) (k0_pay8 (F := Ideal) (iblk m c 1 t)) (outsAt0 m c (t.val - 1) (Nat.lt_of_le_of_lt (Nat.sub_le _ _) t.isLt)).2.2.2) := by
  rw [outsAt0_C m c t h0 h1]
  dsimp only
  exact ⟨sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At any chunk but a half's first, each accumulator is its update of what the chunk before left. -/
theorem outs_BC (c : Dev nD) (t : Fin cfg0.N) (h0 : ¬t.val % 80 = 0) :
    (outsAt0 m c t.val t.isLt).2.1 = k0_pay11 (F := Ideal) (k0_pay7 (iblk m c 4 t)) (k0_pay9 (iblk m c 0 t)) iotaC (k0_pay10 (F := Ideal) (iblk m c 1 t)) (outsAt0 m c (t.val - 1) (Nat.lt_of_le_of_lt (Nat.sub_le _ _) t.isLt)).2.1
    ∧ (outsAt0 m c t.val t.isLt).2.2.1 = k0_pay13 (F := Ideal) (k0_pay5 (iblk m c 2 t)) (k0_pay6 (iblk m c 3 t)) (k0_pay8 (F := Ideal) (iblk m c 1 t)) (outsAt0 m c (t.val - 1) (Nat.lt_of_le_of_lt (Nat.sub_le _ _) t.isLt)).2.2.1
    ∧ (outsAt0 m c t.val t.isLt).2.2.2 = k0_pay14 (F := Ideal) (k0_pay8 (F := Ideal) (iblk m c 1 t)) (outsAt0 m c (t.val - 1) (Nat.lt_of_le_of_lt (Nat.sub_le _ _) t.isLt)).2.2.2 := by
  by_cases h1 : t.val % 80 = 79
  · exact ⟨(outs_C m c t h0 h1).1, (outs_C m c t h0 h1).2.1, (outs_C m c t h0 h1).2.2.1⟩
  · exact outs_B m c t h0 h1

/-! ## The running sums -/

/-- The sum of `f` over the rows at lane `j` of the chunks 0 … k of half `p`. -/
def part (f : ℕ → EReal) (p k j : ℕ) : EReal := ∑ k' ∈ Finset.range (k + 1), f (p * 800000 + k' * 10000 + j)

theorem part_zero (f : ℕ → EReal) (p j : ℕ) : part f p 0 j = f (p * 800000 + 0 * 10000 + j) := by
  unfold part; rw [Finset.sum_range_one]
theorem part_succ (f : ℕ → EReal) (p k j : ℕ) : part f p (k + 1) j = part f p k j + f (p * 800000 + (k + 1) * 10000 + j) := by
  unfold part; rw [Finset.sum_range_succ]

/-- One step of a running sum at a point that is not a half's first: the chunk before is in the same half. -/
theorem part_step (f : ℕ → EReal) (n j : ℕ) (h0 : ¬n % 80 = 0) :
    part f ((n - 1) / 80) ((n - 1) % 80) j + f (n / 80 * 800000 + n % 80 * 10000 + j) = part f (n / 80) (n % 80) j := by
  have e1 : (n - 1) / 80 = n / 80 := by omega
  have e2 : n % 80 = (n - 1) % 80 + 1 := by omega
  rw [e1, e2, part_succ]

/-- After point `n`, lane `j` of each accumulator is the running sum of its row term over the chunks so far of the
    point's half. -/
theorem acc_eq (c : Dev nD) : ∀ (n : ℕ) (h : n < cfg0.N) (j : Fin 10000),
    (outsAt0 m c n h).2.1 (ix2 (0 : Fin 1) j) = part (ceN m c) (n / 80) (n % 80) j.val
    ∧ (outsAt0 m c n h).2.2.1 (ix2 (0 : Fin 1) j) = part (adN m c) (n / 80) (n % 80) j.val
    ∧ (outsAt0 m c n h).2.2.2 (ix2 (0 : Fin 1) j) = part (mtN m c) (n / 80) (n % 80) j.val := by
  intro n
  induction n using Nat.strong_induction_on with
  | _ n ih =>
    intro h j
    by_cases h0 : n % 80 = 0
    · have h1 : ¬n % 80 = 79 := by omega
      obtain ⟨ea, eb, ec⟩ := outs_A m c ⟨n, h⟩ h0 h1
      refine ⟨?_, ?_, ?_⟩
      · rw [show (outsAt0 m c n h).2.1 = _ from ea, lane_ce m c ⟨n, h⟩ _ j, Cert.KernelIdeal.Lane.pay2_lane, zero_add]
        show ceN m c (n / 80 * 800000 + n % 80 * 10000 + j.val) = _
        rw [h0, part_zero]
      · rw [show (outsAt0 m c n h).2.2.1 = _ from eb, lane_ad m c ⟨n, h⟩ _ j, Cert.KernelIdeal.Lane.pay3_lane, zero_add]
        show adN m c (n / 80 * 800000 + n % 80 * 10000 + j.val) = _
        rw [h0, part_zero]
      · rw [show (outsAt0 m c n h).2.2.2 = _ from ec, lane_mt m c ⟨n, h⟩ _ j, Cert.KernelIdeal.Lane.pay4_lane, zero_add]
        show mtN m c (n / 80 * 800000 + n % 80 * 10000 + j.val) = _
        rw [h0, part_zero]
    · have hp : n - 1 < n := by omega
      obtain ⟨ia, ib, ic⟩ := ih (n - 1) hp (Nat.lt_of_le_of_lt (Nat.sub_le _ _) h) j
      obtain ⟨ea, eb, ec⟩ := outs_BC m c ⟨n, h⟩ h0
      refine ⟨?_, ?_, ?_⟩
      · rw [show (outsAt0 m c n h).2.1 = _ from ea, lane_ce m c ⟨n, h⟩ _ j]
        show (outsAt0 m c (n - 1) _).2.1 (ix2 (0 : Fin 1) j) + ceN m c (n / 80 * 800000 + n % 80 * 10000 + j.val) = _
        rw [ia, part_step _ n j.val h0]
      · rw [show (outsAt0 m c n h).2.2.1 = _ from eb, lane_ad m c ⟨n, h⟩ _ j]
        show (outsAt0 m c (n - 1) _).2.2.1 (ix2 (0 : Fin 1) j) + adN m c (n / 80 * 800000 + n % 80 * 10000 + j.val) = _
        rw [ib, part_step _ n j.val h0]
      · rw [show (outsAt0 m c n h).2.2.2 = _ from ec, lane_mt m c ⟨n, h⟩ _ j]
        show (outsAt0 m c (n - 1) _).2.2.2 (ix2 (0 : Fin 1) j) + mtN m c (n / 80 * 800000 + n % 80 * 10000 + j.val) = _
        rw [ic, part_step _ n j.val h0]

/-- The row term an output column sums: column 0 the cross-entropy term, column 1 the direction term, column 2 the indicator. -/
def selN (c : Dev nD) (q : ℕ) : ℕ → EReal := if q = 0 then ceN m c else if q = 1 then adN m c else mtN m c

/-- At a half's last chunk the output block's entry `q` is the sum over the lanes of accumulator `q` after that chunk. -/
theorem out_eq (c : Dev nD) (t : Fin cfg0.N) (h1 : t.val % 80 = 79) (q : Fin 3) :
    (outsAt0 m c t.val t.isLt).1 (ix3 (0 : Fin 1) (0 : Fin 1) q)
      = ∑ j : Fin 10000, part (selN m c q.val) (t.val / 80) 79 j.val := by
  have h0 : ¬t.val % 80 = 0 := by omega
  obtain ⟨ea, eb, ec, eo⟩ := outs_C m c t h0 h1
  rw [eo, ← ea, ← eb, ← ec, Cert.KernelIdeal.Lane.pay1_apply]
  refine Finset.sum_congr rfl fun j _ => ?_
  have hacc := acc_eq m c t.val t.isLt j
  rw [h1] at hacc
  match q with
  | ⟨0, _⟩ => exact hacc.1
  | ⟨1, _⟩ => exact hacc.2.1
  | ⟨2, _⟩ => exact hacc.2.2

end Cert.KernelIdeal.Acc

end
-- ==== Proof.KerFinal.lean ====
/-
  From the accumulators to the kernel's result.

  Each half's last chunk writes the output block of that half: entry `q` is the sum over the lanes of accumulator `q`,
  that is the sum of row term `q` over all the rows of the half.  The two blocks cover the [2, 1, 3] output array; the
  host then adds the two halves and applies the scalar tail, so the result is the loss of the specification.
-/
import proofs.«424065_j21869973471695_3_alg».proof.Proof.KerAcc
import proofs.«424065_j21869973471695_3_alg».proof.Proof.SpecSums
import Idealize.ShloMosaic.Lib.Pipeline.Value
import Idealize.ShloMosaic.Lib.StableHlo.Run
import Idealize.ShloMosaic.PureOps.Ideal.Laws

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Acc Cert.KernelIdeal.Blocks

variable (m : (ℓ : Loc nD τ sig) → Buf (Elt Ideal) ℓ) (ρ : Dev nD → PrngReg)

/-- The output array after the run: entry (p, 0, q) is the sum over the lanes, of the sum over the 80 chunks of half `p`, of
    row term `q`. -/
def outArr (c : Dev nD) : S2x1x3.Idx → EReal := fun i => ∑ j : Fin 10000, part (selN m c (i 2).val) (i 0).val 79 j.val

/-- The output window's block index at point `t` is (t / 80, 0, 0): decided over the grid. -/
theorem idx5 : ∀ t : Fin cfg0.N, win0_5.index t (0 : Fin 3) = t.val / 80 ∧ win0_5.index t (1 : Fin 3) = 0 ∧ win0_5.index t (2 : Fin 3) = 0 :=
  (by decide +kernel : ∀ t : Fin grid0.N, _)

/-- The output block a half's last chunk leaves, at any index of the block. -/
theorem out_block (c : Dev nD) (t : Fin cfg0.N) (h1 : t.val % 80 = 79) (y : S1x1x3.Idx) :
    (outsAt0 m c t.val t.isLt).1 y = ∑ j : Fin 10000, part (selN m c (y 2).val) (t.val / 80) 79 j.val := by
  have h0 : (y 0).val < 1 := (y 0).isLt
  have h1' : (y 1).val < 1 := (y 1).isLt
  have h2 : (y 2).val < 3 := (y 2).isLt
  have hy : y = ix3 (0 : Fin 1) (0 : Fin 1) (⟨(y 2).val, h2⟩ : Fin 3) := by
    funext a
    match a with
    | ⟨0, _⟩ => exact Fin.ext (by show (y 0).val = 0; omega)
    | ⟨1, _⟩ => exact Fin.ext (by show (y 1).val = 0; omega)
    | ⟨2, _⟩ => rfl
  rw [hy]
  exact out_eq m c t h1 _

/-- What a half's last chunk writes back is its block of `outArr`. -/
theorem flushed_eq (c : Dev nD) (t : Fin cfg0.N) (hf : (cfg0.win 5).flush t = true) :
    (dats m 0 c).flushed 5 t = ((cfg0.win 5).blk t).view.read (Elt Ideal) (outArr m c) := by
  have h1 : t.val % 80 = 79 := (flush0_5 t).mp hf
  show (cfg0.win 5).cut (grid0.coords t) ((dats m 0 c).after 5 t) = _
  rw [after0_5]
  funext y
  show (outsAt0 m c t.val t.isLt).1 y = outArr m c (((cfg0.win 5).blk t).view.emb y)
  refine (out_block m c t h1 y).trans ?_
  obtain ⟨e0, e1, e2⟩ := idx5 t
  have hy0 : (y 0).val < 1 := (y 0).isLt
  have hA : ((((cfg0.win 5).blk t).view.emb y) 0).val = t.val / 80 := by
    show win0_5.index t (0 : Fin 3) * 1 + 1 * (y 0).val = _
    omega
  have hC : ((((cfg0.win 5).blk t).view.emb y) 2).val = (y 2).val := by
    show win0_5.index t (2 : Fin 3) * 3 + 1 * (y 2).val = _
    omega
  show _ = ∑ j : Fin 10000, part (selN m c ((((cfg0.win 5).blk t).view.emb y) 2).val) ((((cfg0.win 5).blk t).view.emb y) 0).val 79 j.val
  rw [hA, hC]

/-- The two halves' blocks cover the output array, so it ends as `outArr`. -/
theorem final5 (c : Dev nD) : (dats m 0 c).arrAt 5 cfg0.N = outArr m c :=
  (dats m 0 c).arrAt_eq_of_cover 5 (outArr m c) (flushed_eq m c) fun i => by
    have hi0 : (i 0).val < 2 := (i 0).isLt
    have hi1 : (i 1).val < 1 := (i 1).isLt
    have hi2 : (i 2).val < 3 := (i 2).isLt
    have hN : cfg0.N = 160 := N_0
    have ht : (i 0).val * 80 + 79 < cfg0.N := by rw [hN]; omega
    refine ⟨⟨(i 0).val * 80 + 79, ht⟩, (flush0_5 _).mpr (by show ((i 0).val * 80 + 79) % 80 = 79; omega), ?_⟩
    show i ∈ ((View.whole main_v5).slice (win0_5.rect ⟨(i 0).val * 80 + 79, ht⟩)).set
    rw [View.set_slice_whole, Rect.mem_set_unit]
    obtain ⟨e0, e1, e2⟩ := idx5 ⟨(i 0).val * 80 + 79, ht⟩
    have e0' : win0_5.index ⟨(i 0).val * 80 + 79, ht⟩ (0 : Fin 3) = (i 0).val := by
      rw [e0]; show ((i 0).val * 80 + 79) / 80 = _; omega
    intro a
    match a with
    | ⟨0, _⟩ =>
      show win0_5.index ⟨(i 0).val * 80 + 79, ht⟩ (0 : Fin 3) * 1 ≤ (i 0).val ∧ (i 0).val < win0_5.index ⟨(i 0).val * 80 + 79, ht⟩ (0 : Fin 3) * 1 + 1
      omega
    | ⟨1, _⟩ =>
      show win0_5.index ⟨(i 0).val * 80 + 79, ht⟩ (1 : Fin 3) * 1 ≤ (i 1).val ∧ (i 1).val < win0_5.index ⟨(i 0).val * 80 + 79, ht⟩ (1 : Fin 3) * 1 + 1
      omega
    | ⟨2, _⟩ =>
      show win0_5.index ⟨(i 0).val * 80 + 79, ht⟩ (2 : Fin 3) * 3 ≤ (i 2).val ∧ (i 2).val < win0_5.index ⟨(i 0).val * 80 + 79, ht⟩ (2 : Fin 3) * 3 + 3
      omega

/-! ## The host's lines after the region -/

/-- The two halves added: the host's sum over axis 0 of the output array, from zero. -/
abbrev halves (c : Dev nD) : FVec Ideal S1x3 .f32 :=
  Host.reduceAdd (outArr m c) (constant (F := Ideal) S_ .f32 0x00000000#32) reducesTo_S2x1x3_S1x3_d0 h_S_

/-- Its three columns as scalars. -/
abbrev colA (c : Dev nD) : FVec Ideal S_ .f32 :=
  shapeCast S_ (extractStridedSlice S1x1 ![0, 0] (halves m c) slices_S1x3_S1x1_0_0) shapeCasts_S1x1_S_
abbrev colB (c : Dev nD) : FVec Ideal S_ .f32 :=
  shapeCast S_ (extractStridedSlice S1x1 ![0, 1] (halves m c) slices_S1x3_S1x1_0_1) shapeCasts_S1x1_S_
abbrev colN (c : Dev nD) : FVec Ideal S_ .f32 :=
  shapeCast S_ (extractStridedSlice S1x1 ![0, 2] (halves m c) slices_S1x3_S1x1_0_2) shapeCasts_S1x1_S_

/-- The lines after the region compute the scalar tail of the three columns of the two halves' sum. -/
theorem tail_eq (c : Dev nD) :
    Pipeline.afterTail₀ cfgs (dats m) 0 (V0 m) [hostOps1, hostOps1_1, hostOps1_2] c main_v21
      = Cert.Spec.tail (colA m c) (colB m c) (colN m c) := by
  have hW : Pipeline.withArrays (cfgs 0).spec c (V0 m c) (fun w => (dats m 0 c).arrAt w (cfgs 0).N) (Proc.devRef .tc main_v5)
      = outArr m c :=
    (Pipeline.withArrays_arr spec0 launch0.win.arr_inj c _ _ 5).trans (final5 m c)
  unfold Pipeline.afterTail₀
  simp only [hostOps1, hostOps1_1, hostOps1_2, List.flatten_cons, List.flatten_nil, List.append_nil, List.cons_append, List.nil_append]
  after_results_simp
  rw [hW]
  simp only [StableHlo.TRef.ofBuf, StableHlo.TRef.toBuf, cast_eq]
  rfl

/-- Entry (0, q) of the two halves' sum: the sum over the halves and the lanes of the 80-chunk running sums. -/
theorem halves_apply (c : Dev nD) (q : Fin 3) :
    halves m c (ix2 (0 : Fin 1) q) = ∑ p : Fin 2, ∑ j : Fin 10000, part (selN m c q.val) p.val 79 j.val := by
  show Ideal.hostReduceAdd reducesTo_S2x1x3_S1x3_d0 (outArr m c) (Ideal.ofBits .f32 0x00000000#32) (ix2 (0 : Fin 1) q) = _
  rw [Ideal.hostReduceAdd_single reducesTo_S2x1x3_S1x3_d0 (by decide), Ideal.ofBits_zero_f32, zero_add]
  refine Finset.sum_congr rfl fun p _ => ?_
  rfl

/-- A running sum over all 80 chunks of a half is the sum over the chunks. -/
theorem part_full (f : ℕ → EReal) (p j : ℕ) : part f p 79 j = ∑ k : Fin 80, f (p * 800000 + k.val * 10000 + j) := by
  unfold part
  exact Finset.sum_range fun k => f (p * 800000 + k * 10000 + j)

/-- The three totals are the specification's sums over all rows. -/
theorem total_ce (c : Dev nD) :
    (∑ p : Fin 2, ∑ j : Fin 10000, part (ceN m c) p.val 79 j.val) = Cert.Spec.sumA (A0 m c) (A3 m c) (A4 m c) := by
  unfold Cert.Spec.sumA
  rw [← Cert.Spec.sum_rows_split]
  refine Finset.sum_congr rfl fun p _ => Finset.sum_congr rfl fun j _ => ?_
  rw [part_full]
  refine Finset.sum_congr rfl fun k _ => ?_
  unfold ceN
  rw [dif_pos (Cert.Spec.split_lt p k j)]

theorem total_ad (c : Dev nD) :
    (∑ p : Fin 2, ∑ j : Fin 10000, part (adN m c) p.val 79 j.val) = Cert.Spec.sumB (A1 m c) (A2 m c) (A4 m c) := by
  unfold Cert.Spec.sumB
  rw [← Cert.Spec.sum_rows_split]
  refine Finset.sum_congr rfl fun p _ => Finset.sum_congr rfl fun j _ => ?_
  rw [part_full]
  refine Finset.sum_congr rfl fun k _ => ?_
  unfold adN
  rw [dif_pos (Cert.Spec.split_lt p k j)]

theorem total_mt (c : Dev nD) :
    (∑ p : Fin 2, ∑ j : Fin 10000, part (mtN m c) p.val 79 j.val) = Cert.Spec.sumN (A4 m c) := by
  unfold Cert.Spec.sumN
  rw [← Cert.Spec.sum_rows_split]
  refine Finset.sum_congr rfl fun p _ => Finset.sum_congr rfl fun j _ => ?_
  rw [part_full]
  refine Finset.sum_congr rfl fun k _ => ?_
  unfold mtN
  rw [dif_pos (Cert.Spec.split_lt p k j)]

/-- A column of the two halves' sum, as a scalar, is entry (0, q). -/
theorem col_apply (c : Dev nD) (q : Fin 3) (hs : S1x3.Slices ![0, q.val] S1x1) (i : S_.Idx) :
    shapeCast S_ (extractStridedSlice S1x1 ![0, q.val] (halves m c) hs) shapeCasts_S1x1_S_ i
      = halves m c (ix2 (0 : Fin 1) q) := by
  rw [shapeCast_apply _ shapeCasts_S1x1_S_ i (ix2 (0 : Fin 1) (0 : Fin 1)) (by
    rw [Shape.rowMajor_val_two]
    exact (Shape.rowMajorPi_zero _ i).symm)]
  exact extractStridedSlice_apply _ _ hs _ (ix2 (0 : Fin 1) q) (fun a => by
    match a with
    | ⟨0, _⟩ => rfl
    | ⟨1, _⟩ => show q.val = q.val + 0; omega)

theorem colA_eq (c : Dev nD) : colA m c = fun _ => Cert.Spec.sumA (A0 m c) (A3 m c) (A4 m c) := by
  funext i
  refine (col_apply m c (0 : Fin 3) slices_S1x3_S1x1_0_0 i).trans ?_
  rw [halves_apply]
  exact total_ce m c
theorem colB_eq (c : Dev nD) : colB m c = fun _ => Cert.Spec.sumB (A1 m c) (A2 m c) (A4 m c) := by
  funext i
  refine (col_apply m c (1 : Fin 3) slices_S1x3_S1x1_0_1 i).trans ?_
  rw [halves_apply]
  exact total_ad m c
theorem colN_eq (c : Dev nD) : colN m c = fun _ => Cert.Spec.sumN (A4 m c) := by
  funext i
  refine (col_apply m c (2 : Fin 3) slices_S1x3_S1x1_0_2 i).trans ?_
  rw [halves_apply]
  exact total_mt m c

/-- The kernel's result is the specification's loss of its arguments. -/
theorem result_eq (c : Dev nD) :
    Pipeline.afterTail₀ cfgs (dats m) 0 (V0 m) [hostOps1, hostOps1_1, hostOps1_2] c main_v21
      = Cert.Spec.loss (A0 m c) (A1 m c) (A2 m c) (A3 m c) (A4 m c) := by
  rw [tail_eq, colA_eq, colB_eq, colN_eq]
  rfl

/-- The run, read: every weakly fair execution ends with the result at the loss of the arguments and the arguments
    unchanged. -/
theorem run : θ_run defs (onTc (τ := τ) (main (F := Ideal))) ⟨m, fun _ => 0, ρ⟩ fun r => ∀ c : Dev nD,
      r.2.mem ((c.tc : Thread nD τ).loc main_v21) = Cert.Spec.loss (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.PreRange.lean ====
/-
  The precondition's last two conjuncts say that every label lies in [0, 13].
-/
import proofs.«424065_j21869973471695_3_alg».proof.Defs
import proofs.«424065_j21869973471695_3_alg».proof.Proof.Gen.Pre_finite_inputs
import proofs.«424065_j21869973471695_3_alg».proof.Proof.Spec
import Idealize.ShloMosaic.Lib.ReduceAll
import Idealize.ShloMosaic.Lib.StableHlo.Predicate

noncomputable section

namespace Cert.PreRange

open Idealize.ShloMosaic

/-- A rank-0 shape has exactly one index. -/
local instance : Subsingleton Cert.Pre_finite_inputs.S_.Idx := ⟨fun a b => funext fun d => d.elim0⟩

/-- If the printed precondition evaluates to true on the five arrays, every label word's signed value is in [0, 13]. -/
theorem inRange_of_fn [Cert.Pre_finite_inputs.Facts] {F : FTy → Type} [FloatOps F]
    (x0 : FVec F Cert.Pre_finite_inputs.S32x1000x50x14 .f32) (x1 : FVec F Cert.Pre_finite_inputs.S32x1000x50x3 .f32)
    (x2 : FVec F Cert.Pre_finite_inputs.S32000x50x3 .f32) (x3 : FVec F Cert.Pre_finite_inputs.S14 .f32)
    (x4 : IVec Cert.Pre_finite_inputs.S32000x50 32)
    (h : Cert.Pre_finite_inputs.fn (F := F) x0 x1 x2 x3 x4 = (fun _ => 1#1)) : Cert.Spec.InRange x4 := by
  -- The predicate's single word is 1.
  have h0 := congrFun h ValueIdx.ix0
  unfold Cert.Pre_finite_inputs.fn Cert.Pre_finite_inputs.fn_part1 at h0
  dsimp only at h0
  -- The word is a conjunction ((((a ∧ b) ∧ c) ∧ d) ∧ ge) ∧ le of one-bit words; a conjunction is 1 iff both sides are.
  obtain ⟨h1, hle⟩ := IntOp.andi_eq_one.1 h0
  obtain ⟨_, hge⟩ := IntOp.andi_eq_one.1 h1
  intro i
  -- Each of ge, le is an "all" over the label array: every compared element is 1.
  have ge_i := Host.reduce_andi_all _ _ _ _ _ hge i
  have le_i := Host.reduce_andi_all _ _ _ _ _ hle i
  -- At index i the comparisons are of the label word with the words 0 and 13, read signed.
  have ge_i' : IntOp.cmpi .sge (x4 i) (0#32) = 1#1 := ge_i
  have le_i' : IntOp.cmpi .sle (x4 i) (13#32) = 1#1 := le_i
  have z : (0#32 : BitVec 32).toInt = 0 := by decide
  have t : (13#32 : BitVec 32).toInt = 13 := by decide
  exact ⟨z ▸ IntOp.cmpi_sge.1 ge_i', t ▸ IntOp.cmpi_sle.1 le_i'⟩

end Cert.PreRange

end
-- ==== Proof.lean ====
/-
  The proof of `Cert.Claim`: a detection loss (weighted cross-entropy over 14 classes plus a matched-only L1 direction
  term) computed by a two-core, eighty-chunk reduction kernel, against its jnp reference, over the extended reals.

  Both programs compute `tail (A, B, N)` for the same scalar function `tail`, where A, B and N are the sums over all
  1 600 000 rows of the weighted cross-entropy term, of the masked L1 term and of the matched indicator
  (Proof/Spec.lean).  The precondition says every float input is finite and every label is a class index in [0, 13];
  only the second is used: outside it the reference's take fills with a junk value and the kernel clamps.

  Kernel side (Proof/KerPieces, KerLane, KerBlocks, KerAcc, KerFinal): each grid point updates three lane-wide
  accumulators — lane j of chunk k of half p holds row 800000 p + 10000 k + j —, the log-softmax of a row and the two
  one-hot products collapse to the row's terms, the running sums are an induction on the point, the last chunk of each
  half writes its three lane sums, and the host adds the two halves; a sum over (half, lane, chunk) is the sum over rows.
  Reference side (Proof/RefCe, RefAd, RefValue, over the reference's run read stage by stage): the gathers read the
  labelled class, the integer count does not wrap, and the flat sums are re-indexed by rows.
  Frames: the two kernels' are the generated frame certificates; the reference's is its run with the result dropped.
-/
import proofs.«424065_j21869973471695_3_alg».proof.Defs
import proofs.«424065_j21869973471695_3_alg».proof.Proof.Gen.Kernel
import proofs.«424065_j21869973471695_3_alg».proof.Proof.Gen.Kernel.Frame
import proofs.«424065_j21869973471695_3_alg».proof.Proof.Gen.KernelIdeal
import proofs.«424065_j21869973471695_3_alg».proof.Proof.Gen.KernelIdeal.Frame
import proofs.«424065_j21869973471695_3_alg».proof.Proof.Gen.ReferenceIdeal
import proofs.«424065_j21869973471695_3_alg».proof.Proof.Gen.Pre_finite_inputs
import proofs.«424065_j21869973471695_3_alg».proof.Proof.RefRun
import proofs.«424065_j21869973471695_3_alg».proof.Proof.RefRead
import proofs.«424065_j21869973471695_3_alg».proof.Proof.RefValue
import proofs.«424065_j21869973471695_3_alg».proof.Proof.KerFinal
import proofs.«424065_j21869973471695_3_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's loss of their arguments; the arguments agree, and the labels are class
    indices by the precondition. -/
theorem algebraic : Cert.algebraic_KernelIdeal_ReferenceIdeal := by
  intro m ρ m' ρ' hpre hagree
  refine ⟨fun c => Cert.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2.1, (hagree c).2.2.2.2]
  exact Cert.ReferenceIdeal.RefValue.value _ _ _ _ _ (Cert.PreRange.inRange_of_fn _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
